-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v28_0)) (v1 : (c : Dev Cert.KernelIdeal.nD) → Buf (Elt Ideal) ((c.tc : Thread Cert.KernelIdeal.nD Cert.KernelIdeal.τ).loc Cert.KernelIdeal.main_v28_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28_0) = v0 c
          ∧ r.2.mem ((c.tc : Thread Cert.KernelIdeal.nD Cert.KernelIdeal.τ).loc Cert.KernelIdeal.main_v28_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072 : Shape := ⟨1, ![131072]⟩
abbrev S100000x128 : Shape := ⟨2, ![100000, 128]⟩
abbrev S500000x128 : Shape := ⟨2, ![500000, 128]⟩
abbrev S128 : Shape := ⟨1, ![128]⟩
abbrev S1536x384 : Shape := ⟨2, ![1536, 384]⟩
abbrev S1536 : Shape := ⟨1, ![1536]⟩
abbrev S_ : Shape := ⟨0, ![]⟩

class Facts : Prop where
  bcast_S_S131072 : S_.BroadcastsInDim S131072 (![] : Fin 0 → Fin S131072.rank)
  reducesTo_S131072_S_d0 : S131072.ReducesTo [0] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S500000x128 : S_.BroadcastsInDim S500000x128 (![] : Fin 0 → Fin S500000x128.rank)
  reducesTo_S500000x128_S_d0_1 : S500000x128.ReducesTo [0, 1] S_
  bcast_S_S128 : S_.BroadcastsInDim S128 (![] : Fin 0 → Fin S128.rank)
  reducesTo_S128_S_d0 : S128.ReducesTo [0] S_
  bcast_S_S1536x384 : S_.BroadcastsInDim S1536x384 (![] : Fin 0 → Fin S1536x384.rank)
  reducesTo_S1536x384_S_d0_1 : S1536x384.ReducesTo [0, 1] S_
  bcast_S_S1536 : S_.BroadcastsInDim S1536 (![] : Fin 0 → Fin S1536.rank)
  reducesTo_S1536_S_d0 : S1536.ReducesTo [0] S_

variable [Facts]

def fn_part2 {F : FTy → Type} [FloatOps F] (main_arg10 : FVec F S1536 .f32) (main_arg11 : FVec F S1536 .f32) (main_v33 : IVec S_ 1) : IVec S_ 1 :=
  let main_v34 : FVec F S1536 .f32 := Host.absf main_arg10
  let main_cst_12 : FVec F S_ .f32 := constant S_ .f32 0x7F800000#32
  let main_v35 : FVec F S1536 .f32 := broadcastInDim S1536 ![] bcast_S_S1536 main_cst_12
  let main_v36 : IVec S1536 1 := cmpf .olt main_v34 main_v35
  let main_c_13 : IVec S_ 1 := constantI S_ 1 1#1
  let main_v37 : IVec S_ 1 := (fun x v => Host.reduce IntOp.andi x v reducesTo_S1536_S_d0 h_S_) main_v36 main_c_13
  let main_v38 : IVec S_ 1 := andi main_v33 main_v37
  let main_v39 : FVec F S1536 .f32 := Host.absf main_arg11
  let main_cst_14 : FVec F S_ .f32 := constant S_ .f32 0x7F800000#32
  let main_v40 : FVec F S1536 .f32 := broadcastInDim S1536 ![] bcast_S_S1536 main_cst_14
  let main_v41 : IVec S1536 1 := cmpf .olt main_v39 main_v40
  let main_c_15 : IVec S_ 1 := constantI S_ 1 1#1
  let main_v42 : IVec S_ 1 := (fun x v => Host.reduce IntOp.andi x v reducesTo_S1536_S_d0 h_S_) main_v41 main_c_15
  let main_v43 : IVec S_ 1 := andi main_v38 main_v42
  main_v43

def fn_part1 {F : FTy → Type} [FloatOps F] (main_arg7 : FVec F S128 .f32) (main_arg8 : FVec F S1536x384 .f32) (main_arg9 : FVec F S1536x384 .f32) (main_arg10 : FVec F S1536 .f32) (main_arg11 : FVec F S1536 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S1536x384 .f32 := Host.absf main_arg8
  let main_cst_8 : FVec F S_ .f32 := constant S_ .f32 0x7F800000#32
  let main_v25 : FVec F S1536x384 .f32 := broadcastInDim S1536x384 ![] bcast_S_S1536x384 main_cst_8
  let main_v26 : IVec S1536x384 1 := cmpf .olt main_v24 main_v25
  let main_c_9 : IVec S_ 1 := constantI S_ 1 1#1
  let main_v27 : IVec S_ 1 := (fun x v => Host.reduce IntOp.andi x v reducesTo_S1536x384_S_d0_1 h_S_) main_v26 main_c_9
  let main_v28 : IVec S_ 1 := andi main_v23 main_v27
  let main_v29 : FVec F S1536x384 .f32 := Host.absf main_arg9
  let main_cst_10 : FVec F S_ .f32 := constant S_ .f32 0x7F800000#32
  let main_v30 : FVec F S1536x384 .f32 := broadcastInDim S1536x384 ![] bcast_S_S1536x384 main_cst_10
  let main_v31 : IVec S1536x384 1 := cmpf .olt main_v29 main_v30
  let main_c_11 : IVec S_ 1 := constantI S_ 1 1#1
  let main_v32 : IVec S_ 1 := (fun x v => Host.reduce IntOp.andi x v reducesTo_S1536x384_S_d0_1 h_S_) main_v31 main_c_11
  let main_v33 : IVec S_ 1 := andi main_v28 main_v32
  fn_part2 (F := F) main_arg10 main_arg11 main_v33

def fn {F : FTy → Type} [FloatOps F] (main_arg0 : IVec S131072 32) (main_arg1 : IVec S131072 32) (main_arg2 : FVec F S131072 .f32) (main_arg3 : IVec S131072 32) (main_arg4 : FVec F S100000x128 .f32) (main_arg5 : FVec F S500000x128 .f32) (main_arg6 : FVec F S128 .f32) (main_arg7 : FVec F S128 .f32) (main_arg8 : FVec F S1536x384 .f32) (main_arg9 : FVec F S1536x384 .f32) (main_arg10 : FVec F S1536 .f32) (main_arg11 : FVec F S1536 .f32) : IVec S_ 1 :=
  let main_v0 : FVec F S131072 .f32 := Host.absf main_arg2
  let main_cst : FVec F S_ .f32 := constant S_ .f32 0x7F800000#32
  let main_v1 : FVec F S131072 .f32 := broadcastInDim S131072 ![] bcast_S_S131072 main_cst
  let main_v2 : IVec S131072 1 := cmpf .olt main_v0 main_v1
  let main_c : IVec S_ 1 := constantI S_ 1 1#1
  let main_v3 : IVec S_ 1 := (fun x v => Host.reduce IntOp.andi x v reducesTo_S131072_S_d0 h_S_) main_v2 main_c
  let main_v4 : FVec F S100000x128 .f32 := Host.absf main_arg4
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S500000x128 .f32 := Host.absf main_arg5
  let main_cst_2 : FVec F S_ .f32 := constant S_ .f32 0x7F800000#32
  let main_v10 : FVec F S500000x128 .f32 := broadcastInDim S500000x128 ![] bcast_S_S500000x128 main_cst_2
  let main_v11 : IVec S500000x128 1 := cmpf .olt main_v9 main_v10
  let main_c_3 : IVec S_ 1 := constantI S_ 1 1#1
  let main_v12 : IVec S_ 1 := (fun x v => Host.reduce IntOp.andi x v reducesTo_S500000x128_S_d0_1 h_S_) main_v11 main_c_3
  let main_v13 : IVec S_ 1 := andi main_v8 main_v12
  let main_v14 : FVec F S128 .f32 := Host.absf main_arg6
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg7 main_arg8 main_arg9 main_arg10 main_arg11 main_v13 main_v16
-- ==== Kernel.lean ====
abbrev S131072 : Shape := ⟨1, ![131072]⟩
abbrev S100000x128 : Shape := ⟨2, ![100000, 128]⟩
abbrev S500000x128 : Shape := ⟨2, ![500000, 128]⟩
abbrev S128 : Shape := ⟨1, ![128]⟩
abbrev S1536x384 : Shape := ⟨2, ![1536, 384]⟩
abbrev S1536 : Shape := ⟨1, ![1536]⟩
abbrev S_ : Shape := ⟨0, ![]⟩
abbrev S131072x1 : Shape := ⟨2, ![131072, 1]⟩
abbrev S131072x128 : Shape := ⟨2, ![131072, 128]⟩
abbrev S1x128 : Shape := ⟨2, ![1, 128]⟩
abbrev S384x1536 : Shape := ⟨2, ![384, 1536]⟩
abbrev S1x1536 : Shape := ⟨2, ![1, 1536]⟩
abbrev S131072x384 : Shape := ⟨2, ![131072, 384]⟩
abbrev S1024x128 : Shape := ⟨2, ![1024, 128]⟩
abbrev S1024x1 : Shape := ⟨2, ![1024, 1]⟩
abbrev S1024x384 : Shape := ⟨2, ![1024, 384]⟩
abbrev S1024x1536 : Shape := ⟨2, ![1024, 1536]⟩

abbrev nBuf : Space → Nat
  | .hbm => 48
  | .vmem => 16
  | .smem => 0
  | _ => 0

abbrev bufTy : (tb : Table) → Fin (tcTables nBuf tb) → BufTy
  | .hbm, ⟨0, _⟩ => ⟨S131072, .i32⟩
  | .hbm, ⟨1, _⟩ => ⟨S131072, .i32⟩
  | .hbm, ⟨2, _⟩ => ⟨S131072, .f32⟩
  | .hbm, ⟨3, _⟩ => ⟨S131072, .i32⟩
  | .hbm, ⟨4, _⟩ => ⟨S100000x128, .f32⟩
  | .hbm, ⟨5, _⟩ => ⟨S500000x128, .f32⟩
  | .hbm, ⟨6, _⟩ => ⟨S128, .f32⟩
  | .hbm, ⟨7, _⟩ => ⟨S128, .f32⟩
  | .hbm, ⟨8, _⟩ => ⟨S1536x384, .f32⟩
  | .hbm, ⟨9, _⟩ => ⟨S1536x384, .f32⟩
  | .hbm, ⟨10, _⟩ => ⟨S1536, .f32⟩
  | .hbm, ⟨11, _⟩ => ⟨S1536, .f32⟩
  | .hbm, ⟨12, _⟩ => ⟨S_, .i32⟩
  | .hbm, ⟨13, _⟩ => ⟨S131072, .i32⟩
  | .hbm, ⟨14, _⟩ => ⟨S131072, .i1⟩
  | .hbm, ⟨15, _⟩ => ⟨S_, .i32⟩
  | .hbm, ⟨16, _⟩ => ⟨S131072, .i32⟩
  | .hbm, ⟨17, _⟩ => ⟨S131072, .i32⟩
  | .hbm, ⟨18, _⟩ => ⟨S131072, .i32⟩
  | .hbm, ⟨19, _⟩ => ⟨S131072x1, .i32⟩
  | .hbm, ⟨20, _⟩ => ⟨S131072x128, .f32⟩
  | .hbm, ⟨21, _⟩ => ⟨S_, .i32⟩
  | .hbm, ⟨22, _⟩ => ⟨S131072, .i32⟩
  | .hbm, ⟨23, _⟩ => ⟨S131072, .i1⟩
  | .hbm, ⟨24, _⟩ => ⟨S_, .i32⟩
  | .hbm, ⟨25, _⟩ => ⟨S131072, .i32⟩
  | .hbm, ⟨26, _⟩ => ⟨S131072, .i32⟩
  | .hbm, ⟨27, _⟩ => ⟨S131072, .i32⟩
  | .hbm, ⟨28, _⟩ => ⟨S131072x1, .i32⟩
  | .hbm, ⟨29, _⟩ => ⟨S131072x128, .f32⟩
  | .hbm, ⟨30, _⟩ => ⟨S_, .i32⟩
  | .hbm, ⟨31, _⟩ => ⟨S131072, .i32⟩
  | .hbm, ⟨32, _⟩ => ⟨S131072, .i1⟩
  | .hbm, ⟨33, _⟩ => ⟨S_, .i32⟩
  | .hbm, ⟨34, _⟩ => ⟨S131072, .i32⟩
  | .hbm, ⟨35, _⟩ => ⟨S131072, .i32⟩
  | .hbm, ⟨36, _⟩ => ⟨S131072, .i32⟩
  | .hbm, ⟨37, _⟩ => ⟨S131072x1, .i32⟩
  | .hbm, ⟨38, _⟩ => ⟨S131072x128, .f32⟩
  | .hbm, ⟨39, _⟩ => ⟨S131072x1, .f32⟩
  | .hbm, ⟨40, _⟩ => ⟨S1x128, .f32⟩
  | .hbm, ⟨41, _⟩ => ⟨S1x128, .f32⟩
  | .hbm, ⟨42, _⟩ => ⟨S384x1536, .f32⟩
  | .hbm, ⟨43, _⟩ => ⟨S384x1536, .bf16⟩
  | .hbm, ⟨44, _⟩ => ⟨S1536, .f32⟩
  | .hbm, ⟨45, _⟩ => ⟨S1x1536, .f32⟩
  | .hbm, ⟨46, _⟩ => ⟨S131072x384, .f32⟩
  | .hbm, ⟨47, _⟩ => ⟨S131072x384, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x1, .f32⟩
  | .local _ .vmem, ⟨7, _⟩ => ⟨S1024x1, .f32⟩
  | .local _ .vmem, ⟨8, _⟩ => ⟨S1x128, .f32⟩
  | .local _ .vmem, ⟨9, _⟩ => ⟨S1x128, .f32⟩
  | .local _ .vmem, ⟨10, _⟩ => ⟨S384x1536, .bf16⟩
  | .local _ .vmem, ⟨11, _⟩ => ⟨S1x1536, .f32⟩
  | .local _ .vmem, ⟨12, _⟩ => ⟨S1024x384, .f32⟩
  | .local _ .vmem, ⟨13, _⟩ => ⟨S1024x384, .f32⟩
  | .local _ .vmem, ⟨14, _⟩ => ⟨S1024x384, .f32⟩
  | .local _ .vmem, ⟨15, _⟩ => ⟨S1024x384, .f32⟩
  | _, _ => ⟨S131072, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c_3 : Ref sig .tc := ⟨.hbm, 30, rfl⟩
abbrev main_v14 : Ref sig .tc := ⟨.hbm, 31, rfl⟩
abbrev main_v15 : Ref sig .tc := ⟨.hbm, 32, rfl⟩
abbrev main_c_4 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28_0 : Ref sig .tc := ⟨.hbm, 46, rfl⟩
abbrev main_v28_1 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S384x1536 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x384 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S_S131072 : S_.BroadcastsInDim S131072 (![] : Fin 0 → Fin S131072.rank)
  bcast_S131072_S131072x1_0 : S131072.BroadcastsInDim S131072x1 (![0] : Fin 1 → Fin S131072x1.rank)
  shapeCasts_S131072_S131072x1 : S131072.ShapeCasts S131072x1
  shapeCasts_S128_S1x128 : S128.ShapeCasts S1x128
  transposes_S1536x384_S384x1536_1_0 : S1536x384.Transposes [1, 0] S384x1536
  bitsLt_bf16_f32 : FTy.bits .bf16 < FTy.bits .f32
  shapeCasts_S1536_S1x1536 : S1536.ShapeCasts S1x1536
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1024x1_S1024x128 : S1024x1.Broadcasts S1024x128
  broadcasts_S1x128_S1024x128 : S1x128.Broadcasts S1024x128
  concatenates_S1024x128_S1024x128_S1024x128_S1024x384_d1 : Shape.Concatenates [S1024x128, S1024x128, S1024x128] S1024x384 1
  inb_S384x1536_S384x1536_0_0 : ∀ a, (![0, 0] : Fin 2 → Nat) a + S384x1536.size a ≤ S384x1536.size a
  h_S384x1536 : 0 < S384x1536.numel
  shapeCasts_S384x1536_S384x1536 : S384x1536.ShapeCasts S384x1536
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  broadcasts_S1x1536_S1024x1536 : S1x1536.Broadcasts S1024x1536
  slices_S1024x1536_o0_0_S1024x384 : S1024x1536.Slices ![0, 0] S1024x384
  slices_S1024x1536_o0_768_S1024x384 : S1024x1536.Slices ![0, 768] S1024x384
  slices_S1024x1536_o0_1152_S1024x384 : S1024x1536.Slices ![0, 1152] S1024x384
  inb_S1024x384_S1024x384_0_0 : ∀ a, (![0, 0] : Fin 2 → Nat) a + S1024x384.size a ≤ S1024x384.size a
  h_S1024x384 : 0 < S1024x384.numel
  gather_S100000x128_S131072x1_S131072x128_1_0_n_n_0_1_1128_wf : GatherDims.WF S100000x128 S131072x1 S131072x128 [1] [0] [] [0] [] 1 ![1, 128]
  gather_S500000x128_S131072x1_S131072x128_1_0_n_n_0_1_1128_wf : GatherDims.WF S500000x128 S131072x1 S131072x128 [1] [0] [] [0] [] 1 ![1, 128]
  dot_S1024x384_S384x1536_S1024x1536_1_0_0_1_n_n_wf : DotDims.WF S1024x384 S384x1536 S1024x1536 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S131072x128.size a
  hwx0_0 : ∀ i : grid0.Coords, EltTy.bits .f32 = 32 ∨ (Rect.block (s := S131072x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S131072x128.size a
  hwx0_1 : ∀ i : grid0.Coords, EltTy.bits .f32 = 32 ∨ (Rect.block (s := S131072x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S131072x128.size a
  hwx0_2 : ∀ i : grid0.Coords, EltTy.bits .f32 = 32 ∨ (Rect.block (s := S131072x128) S1024x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S131072x1.size a
  hwx0_3 : ∀ i : grid0.Coords, EltTy.bits .f32 = 32 ∨ (Rect.block (s := S131072x1) S1024x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S384x1536.size a ≤ S384x1536.size a
  hwx0_6 : ∀ i : grid0.Coords, EltTy.bits .bf16 = 32 ∨ (Rect.block (s := S384x1536) S384x1536.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1536.size a ≤ S1x1536.size a
  hwx0_7 : ∀ i : grid0.Coords, EltTy.bits .f32 = 32 ∨ (Rect.block (s := S1x1536) S1x1536.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x384.size a ≤ S131072x384.size a
  hwx0_8 : ∀ i : grid0.Coords, EltTy.bits .f32 = 32 ∨ (Rect.block (s := S131072x384) S1024x384.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x384.size a ≤ S131072x384.size a
  hwx0_9 : ∀ i : grid0.Coords, EltTy.bits .f32 = 32 ∨ (Rect.block (s := S131072x384) S1024x384.size (cc0_transform_9 i) (hinb0_9 i)).WholeWords (EltTy.packing .f32)

variable [Facts₀]

def gather_S100000x128_S131072x1_S131072x128_1_0_n_n_0_1_1128 : GatherDims S100000x128 S131072x1 S131072x128 where
  offsetDims := [1]
  collapsedSliceDims := [0]
  operandBatchingDims := []
  startIndicesBatchingDims := []
  startIndexMap := [0]
  indexVectorDim := 1
  sliceSizes := ![1, 128]
  wf := gather_S100000x128_S131072x1_S131072x128_1_0_n_n_0_1_1128_wf
def gather_S500000x128_S131072x1_S131072x128_1_0_n_n_0_1_1128 : GatherDims S500000x128 S131072x1 S131072x128 where
  offsetDims := [1]
  collapsedSliceDims := [0]
  operandBatchingDims := []
  startIndicesBatchingDims := []
  startIndexMap := [0]
  indexVectorDim := 1
  sliceSizes := ![1, 128]
  wf := gather_S500000x128_S131072x1_S131072x128_1_0_n_n_0_1_1128_wf
def dot_S1024x384_S384x1536_S1024x1536_1_0_0_1_n_n : DotDims S1024x384 S384x1536 S1024x1536 where
  lhsContracting := [1]
  rhsContracting := [0]
  lhsNonContracting := [0]
  rhsNonContracting := [1]
  lhsBatch := []
  rhsBatch := []
  wf := dot_S1024x384_S384x1536_S1024x1536_1_0_0_1_n_n_wf

abbrev win0_0 : Pipeline.Window sig grid0 :=
  Pipeline.Window.ofSpec (Memref.whole main_v6) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S1024x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S384x1536.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v27) S1x1536.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v28_0) S1024x384.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v28_1) S1024x384.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S131072 : Shape := ⟨1, ![131072]⟩
abbrev S100000x128 : Shape := ⟨2, ![100000, 128]⟩
abbrev S500000x128 : Shape := ⟨2, ![500000, 128]⟩
abbrev S128 : Shape := ⟨1, ![128]⟩
abbrev S1536x384 : Shape := ⟨2, ![1536, 384]⟩
abbrev S1536 : Shape := ⟨1, ![1536]⟩
abbrev S131072x1 : Shape := ⟨2, ![131072, 1]⟩
abbrev S1x128 : Shape := ⟨2, ![1, 128]⟩
abbrev S131072x128 : Shape := ⟨2, ![131072, 128]⟩
abbrev S_ : Shape := ⟨0, ![]⟩
abbrev S131072x384 : Shape := ⟨2, ![131072, 384]⟩
abbrev S384x1536 : Shape := ⟨2, ![384, 1536]⟩
abbrev S131072x1536 : Shape := ⟨2, ![131072, 1536]⟩
abbrev S1x1536 : Shape := ⟨2, ![1, 1536]⟩

abbrev nBuf : Space → Nat
  | .hbm => 82
  | .vmem => 0
  | .smem => 0
  | _ => 0

abbrev bufTy : (tb : Table) → Fin (tcTables nBuf tb) → BufTy
  | .hbm, ⟨0, _⟩ => ⟨S131072, .i32⟩
  | .hbm, ⟨1, _⟩ => ⟨S131072, .i32⟩
  | .hbm, ⟨2, _⟩ => ⟨S131072, .f32⟩
  | .hbm, ⟨3, _⟩ => ⟨S131072, .i32⟩
  | .hbm, ⟨4, _⟩ => ⟨S100000x128, .f32⟩
  | .hbm, ⟨5, _⟩ => ⟨S500000x128, .f32⟩
  | .hbm, ⟨6, _⟩ => ⟨S128, .f32⟩
  | .hbm, ⟨7, _⟩ => ⟨S128, .f32⟩
  | .hbm, ⟨8, _⟩ => ⟨S1536x384, .f32⟩
  | .hbm, ⟨9, _⟩ => ⟨S1536x384, .f32⟩
  | .hbm, ⟨10, _⟩ => ⟨S1536, .f32⟩
  | .hbm, ⟨11, _⟩ => ⟨S1536, .f32⟩
  | .hbm, ⟨12, _⟩ => ⟨S131072x1, .f32⟩
  | .hbm, ⟨13, _⟩ => ⟨S1x128, .f32⟩
  | .hbm, ⟨14, _⟩ => ⟨S131072x128, .f32⟩
  | .hbm, ⟨15, _⟩ => ⟨S131072x128, .f32⟩
  | .hbm, ⟨16, _⟩ => ⟨S131072x128, .f32⟩
  | .hbm, ⟨17, _⟩ => ⟨S1x128, .f32⟩
  | .hbm, ⟨18, _⟩ => ⟨S131072x128, .f32⟩
  | .hbm, ⟨19, _⟩ => ⟨S131072x128, .f32⟩
  | .hbm, ⟨20, _⟩ => ⟨S131072x128, .f32⟩
  | .hbm, ⟨21, _⟩ => ⟨S_, .i32⟩
  | .hbm, ⟨22, _⟩ => ⟨S131072, .i32⟩
  | .hbm, ⟨23, _⟩ => ⟨S131072, .i1⟩
  | .hbm, ⟨24, _⟩ => ⟨S_, .i32⟩
  | .hbm, ⟨25, _⟩ => ⟨S131072, .i32⟩
  | .hbm, ⟨26, _⟩ => ⟨S131072, .i32⟩
  | .hbm, ⟨27, _⟩ => ⟨S131072, .i32⟩
  | .hbm, ⟨28, _⟩ => ⟨S131072x1, .i32⟩
  | .hbm, ⟨29, _⟩ => ⟨S131072x128, .f32⟩
  | .hbm, ⟨30, _⟩ => ⟨S_, .i32⟩
  | .hbm, ⟨31, _⟩ => ⟨S131072, .i32⟩
  | .hbm, ⟨32, _⟩ => ⟨S131072, .i1⟩
  | .hbm, ⟨33, _⟩ => ⟨S_, .i32⟩
  | .hbm, ⟨34, _⟩ => ⟨S131072, .i32⟩
  | .hbm, ⟨35, _⟩ => ⟨S131072, .i32⟩
  | .hbm, ⟨36, _⟩ => ⟨S131072, .i32⟩
  | .hbm, ⟨37, _⟩ => ⟨S131072x1, .i32⟩
  | .hbm, ⟨38, _⟩ => ⟨S131072x128, .f32⟩
  | .hbm, ⟨39, _⟩ => ⟨S131072x128, .f32⟩
  | .hbm, ⟨40, _⟩ => ⟨S_, .i32⟩
  | .hbm, ⟨41, _⟩ => ⟨S131072, .i32⟩
  | .hbm, ⟨42, _⟩ => ⟨S131072, .i1⟩
  | .hbm, ⟨43, _⟩ => ⟨S_, .i32⟩
  | .hbm, ⟨44, _⟩ => ⟨S131072, .i32⟩
  | .hbm, ⟨45, _⟩ => ⟨S131072, .i32⟩
  | .hbm, ⟨46, _⟩ => ⟨S131072, .i32⟩
  | .hbm, ⟨47, _⟩ => ⟨S131072x1, .i32⟩
  | .hbm, ⟨48, _⟩ => ⟨S131072x128, .f32⟩
  | .hbm, ⟨49, _⟩ => ⟨S131072x384, .f32⟩
  | .hbm, ⟨50, _⟩ => ⟨S384x1536, .f32⟩
  | .hbm, ⟨51, _⟩ => ⟨S131072x1536, .f32⟩
  | .hbm, ⟨52, _⟩ => ⟨S1x1536, .f32⟩
  | .hbm, ⟨53, _⟩ => ⟨S131072x1536, .f32⟩
  | .hbm, ⟨54, _⟩ => ⟨S131072x1536, .f32⟩
  | .hbm, ⟨55, _⟩ => ⟨S1x1536, .f32⟩
  | .hbm, ⟨56, _⟩ => ⟨S131072x1536, .f32⟩
  | .hbm, ⟨57, _⟩ => ⟨S131072x1536, .f32⟩
  | .hbm, ⟨58, _⟩ => ⟨S131072x384, .f32⟩
  | .hbm, ⟨59, _⟩ => ⟨S131072x384, .f32⟩
  | .hbm, ⟨60, _⟩ => ⟨S131072x384, .f32⟩
  | .hbm, ⟨61, _⟩ => ⟨S131072x384, .f32⟩
  | .hbm, ⟨62, _⟩ => ⟨S131072x384, .f32⟩
  | .hbm, ⟨63, _⟩ => ⟨S131072x384, .f32⟩
  | .hbm, ⟨64, _⟩ => ⟨S_, .f32⟩
  | .hbm, ⟨65, _⟩ => ⟨S131072x384, .f32⟩
  | .hbm, ⟨66, _⟩ => ⟨S131072x384, .f32⟩
  | .hbm, ⟨67, _⟩ => ⟨S_, .f32⟩
  | .hbm, ⟨68, _⟩ => ⟨S131072x384, .f32⟩
  | .hbm, ⟨69, _⟩ => ⟨S131072x384, .f32⟩
  | .hbm, ⟨70, _⟩ => ⟨S131072x384, .f32⟩
  | .hbm, ⟨71, _⟩ => ⟨S131072x384, .f32⟩
  | .hbm, ⟨72, _⟩ => ⟨S131072x384, .f32⟩
  | .hbm, ⟨73, _⟩ => ⟨S131072x384, .f32⟩
  | .hbm, ⟨74, _⟩ => ⟨S_, .f32⟩
  | .hbm, ⟨75, _⟩ => ⟨S131072x384, .f32⟩
  | .hbm, ⟨76, _⟩ => ⟨S131072x384, .f32⟩
  | .hbm, ⟨77, _⟩ => ⟨S_, .f32⟩
  | .hbm, ⟨78, _⟩ => ⟨S131072x384, .f32⟩
  | .hbm, ⟨79, _⟩ => ⟨S131072x384, .f32⟩
  | .hbm, ⟨80, _⟩ => ⟨S131072x384, .f32⟩
  | .hbm, ⟨81, _⟩ => ⟨S131072x384, .f32⟩
  | _, _ => ⟨S131072, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c : Ref sig .tc := ⟨.hbm, 21, rfl⟩
abbrev main_v9 : Ref sig .tc := ⟨.hbm, 22, rfl⟩
abbrev main_v10 : Ref sig .tc := ⟨.hbm, 23, rfl⟩
abbrev main_c_0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_1 : Ref sig .tc := ⟨.hbm, 30, rfl⟩
abbrev main_v16 : Ref sig .tc := ⟨.hbm, 31, rfl⟩
abbrev main_v17 : Ref sig .tc := ⟨.hbm, 32, rfl⟩
abbrev main_c_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_3 : Ref sig .tc := ⟨.hbm, 40, rfl⟩
abbrev main_v24 : Ref sig .tc := ⟨.hbm, 41, rfl⟩
abbrev main_v25 : Ref sig .tc := ⟨.hbm, 42, rfl⟩
abbrev main_c_4 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst : Ref sig .tc := ⟨.hbm, 64, rfl⟩
abbrev main_v46 : Ref sig .tc := ⟨.hbm, 65, rfl⟩
abbrev main_v47 : Ref sig .tc := ⟨.hbm, 66, rfl⟩
abbrev main_cst_5 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_6 : Ref sig .tc := ⟨.hbm, 74, rfl⟩
abbrev main_v54 : Ref sig .tc := ⟨.hbm, 75, rfl⟩
abbrev main_v55 : Ref sig .tc := ⟨.hbm, 76, rfl⟩
abbrev main_cst_7 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩

abbrev nD : Nat := 1
abbrev τ : Topo := Topo.v7x

variable {F : FTy → Type} [FloatOps F]

class Facts₀ : Prop where
  bcast_S131072_S131072x1_0 : S131072.BroadcastsInDim S131072x1 (![0] : Fin 1 → Fin S131072x1.rank)
  bcast_S128_S1x128_1 : S128.BroadcastsInDim S1x128 (![1] : Fin 1 → Fin S1x128.rank)
  bcast_S131072x1_S131072x128_0_1 : S131072x1.BroadcastsInDim S131072x128 (![0, 1] : Fin 2 → Fin S131072x128.rank)
  bcast_S1x128_S131072x128_0_1 : S1x128.BroadcastsInDim S131072x128 (![0, 1] : Fin 2 → Fin S131072x128.rank)
  bcast_S_S131072 : S_.BroadcastsInDim S131072 (![] : Fin 0 → Fin S131072.rank)
  concatenates_S131072x128_S131072x128_S131072x128_S131072x384_d1 : Shape.Concatenates [S131072x128, S131072x128, S131072x128] S131072x384 1
  transposes_S1536x384_S384x1536_1_0 : S1536x384.Transposes [1, 0] S384x1536
  bcast_S1536_S1x1536_1 : S1536.BroadcastsInDim S1x1536 (![1] : Fin 1 → Fin S1x1536.rank)
  bcast_S1x1536_S131072x1536_0_1 : S1x1536.BroadcastsInDim S131072x1536 (![0, 1] : Fin 2 → Fin S131072x1536.rank)
  slices_S131072x1536_S131072x384_0_0 : S131072x1536.Slices ![0, 0] S131072x384
  slices_S131072x1536_S131072x384_0_384 : S131072x1536.Slices ![0, 384] S131072x384
  slices_S131072x1536_S131072x384_0_768 : S131072x1536.Slices ![0, 768] S131072x384
  slices_S131072x1536_S131072x384_0_1152 : S131072x1536.Slices ![0, 1152] S131072x384
  bcast_S_S131072x384 : S_.BroadcastsInDim S131072x384 (![] : Fin 0 → Fin S131072x384.rank)
  gather_S100000x128_S131072x1_S131072x128_1_0_n_n_0_1_1128_wf : GatherDims.WF S100000x128 S131072x1 S131072x128 [1] [0] [] [0] [] 1 ![1, 128]
  gather_S500000x128_S131072x1_S131072x128_1_0_n_n_0_1_1128_wf : GatherDims.WF S500000x128 S131072x1 S131072x128 [1] [0] [] [0] [] 1 ![1, 128]
  dot_S131072x384_S384x1536_S131072x1536_1_0_0_1_n_n_wf : DotDims.WF S131072x384 S384x1536 S131072x1536 [1] [0] [0] [1] [] []

variable [Facts₀]

def gather_S100000x128_S131072x1_S131072x128_1_0_n_n_0_1_1128 : GatherDims S100000x128 S131072x1 S131072x128 where
  offsetDims := [1]
  collapsedSliceDims := [0]
  operandBatchingDims := []
  startIndicesBatchingDims := []
  startIndexMap := [0]
  indexVectorDim := 1
  sliceSizes := ![1, 128]
  wf := gather_S100000x128_S131072x1_S131072x128_1_0_n_n_0_1_1128_wf
def gather_S500000x128_S131072x1_S131072x128_1_0_n_n_0_1_1128 : GatherDims S500000x128 S131072x1 S131072x128 where
  offsetDims := [1]
  collapsedSliceDims := [0]
  operandBatchingDims := []
  startIndicesBatchingDims := []
  startIndexMap := [0]
  indexVectorDim := 1
  sliceSizes := ![1, 128]
  wf := gather_S500000x128_S131072x1_S131072x128_1_0_n_n_0_1_1128_wf
def dot_S131072x384_S384x1536_S131072x1536_1_0_0_1_n_n : DotDims S131072x384 S384x1536 S131072x1536 where
  lhsContracting := [1]
  rhsContracting := [0]
  lhsNonContracting := [0]
  rhsNonContracting := [1]
  lhsBatch := []
  rhsBatch := []
  wf := dot_S131072x384_S384x1536_S131072x1536_1_0_0_1_n_n_wf

class Facts : Prop extends Facts₀ where

variable [Facts]
-- ==== Proof.LstmSpec.lean ====
/-
  What both programs compute, entry by entry, on the extended reals.

  For a row p the 384 input features are laid side by side: the sum of two gathered node rows (columns 0-127), the
  time encoding cos(t_p * f_k + phi_k) (columns 128-255) and a gathered edge row (columns 256-383). The LSTM cell with
  zero initial state takes the pre-activations g(p, q) = sum_k feat(p, k) * W(q, k) + bias(q) for the 1536 gate
  columns q, and returns the cell state c(p, j) = logistic(g(p, j)) * tanh(g(p, 768 + j)) and the hidden state
  h(p, j) = logistic(g(p, 1152 + j)) * tanh(c(p, j)) for j below 384; the forget gate (columns 384-767) multiplies the
  zero initial cell and is never used.

  The only law that joins the two programs: the bias may be added as one number b1 + b2 or one summand after the
  other; addition of extended reals is associative, so the two agree at every input, finite or not.
-/
import Idealize.ShloMosaic.PureOps.Ideal
import Idealize.ShloMosaic.Lib.ValueIdx

noncomputable section

open scoped BigOperators

namespace Cert.LstmSpec

open Idealize.ShloMosaic Idealize.ShloMosaic.ValueIdx

/-- Three 128-wide rows side by side as one 384-wide row. -/
def feat (hid tf ed : Fin 128 → EReal) (k : Fin 384) : EReal :=
  if h : k.val < 128 then hid ⟨k.val, h⟩
  else if h2 : k.val < 256 then tf ⟨k.val - 128, by omega⟩
  else ed ⟨k.val - 256, by omega⟩

theorem feat_lo (hid tf ed : Fin 128 → EReal) (k : Fin 384) (h : k.val < 128) : feat hid tf ed k = hid ⟨k.val, h⟩ := by
  unfold feat; rw [dif_pos h]

theorem feat_mid (hid tf ed : Fin 128 → EReal) (k : Fin 384) (h : ¬ k.val < 128) (h2 : k.val < 256) :
    feat hid tf ed k = tf ⟨k.val - 128, by omega⟩ := by
  unfold feat; rw [dif_neg h, dif_pos h2]

theorem feat_hi (hid tf ed : Fin 128 → EReal) (k : Fin 384) (h : ¬ k.val < 128) (h2 : ¬ k.val < 256) :
    feat hid tf ed k = ed ⟨k.val - 256, by have := k.isLt; omega⟩ := by
  unfold feat; rw [dif_neg h, dif_neg h2]

/-- One gate column's pre-activation: the feature row against the column's weights, plus the bias. -/
def gate (a wq : Fin 384 → EReal) (b : EReal) : EReal := (∑ k : Fin 384, a k * wq k) + b

/-- The bias added one summand after the other is the bias added as one number. -/
theorem gate_two_biases (a wq : Fin 384 → EReal) (b1 b2 : EReal) :
    ((∑ k : Fin 384, a k * wq k) + b1) + b2 = gate a wq (b1 + b2) := by
  unfold gate; rw [add_assoc]

/-- The new cell state from the input gate and the candidate (the initial cell is zero). -/
def cell (gi gg : EReal) : EReal := Ideal.logistic gi * Ideal.tanh gg

/-- The new hidden state from the output gate and the new cell state. -/
def hidden (go c : EReal) : EReal := Ideal.logistic go * Ideal.tanh c

/-! ## Over the arrays -/

section Arrays

variable (sg tg eg : (⟨2, ![131072, 128]⟩ : Shape).Idx → EReal) (ct : (⟨1, ![131072]⟩ : Shape).Idx → EReal)
  (bf ph : (⟨1, ![128]⟩ : Shape).Idx → EReal) (w : (⟨2, ![1536, 384]⟩ : Shape).Idx → EReal)
  (bi bh : (⟨1, ![1536]⟩ : Shape).Idx → EReal)

/-- Row p's features from the gathered rows sg, tg, eg, the times ct and the time encoding's frequencies and phases. -/
def rowFeat (p : Fin 131072) : Fin 384 → EReal :=
  feat (fun k => sg (ix2 p k) + tg (ix2 p k)) (fun k => Ideal.cos (ct (ix1 p) * bf (ix1 k) + ph (ix1 k)))
    (fun k => eg (ix2 p k))

/-- The pre-activation of gate column q at row p. -/
def gateAt (p : Fin 131072) (q : Fin 1536) : EReal :=
  gate (rowFeat sg tg eg ct bf ph p) (fun k => w (ix2 q k)) (bi (ix1 q) + bh (ix1 q))

/-- The cell state at row p, column j. -/
def cellAt (p : Fin 131072) (j : Fin 384) : EReal :=
  cell (gateAt sg tg eg ct bf ph w bi bh p ⟨j.val, by omega⟩) (gateAt sg tg eg ct bf ph w bi bh p ⟨j.val + 768, by omega⟩)

/-- The hidden state at row p, column j. -/
def hiddenAt (p : Fin 131072) (j : Fin 384) : EReal :=
  hidden (gateAt sg tg eg ct bf ph w bi bh p ⟨j.val + 1152, by omega⟩) (cellAt sg tg eg ct bf ph w bi bh p j)

/-- The cell-state array. -/
def cellArr : (⟨2, ![131072, 384]⟩ : Shape).Idx → EReal := fun i => cellAt sg tg eg ct bf ph w bi bh (i 0) (i 1)

/-- The hidden-state array. -/
def hiddenArr : (⟨2, ![131072, 384]⟩ : Shape).Idx → EReal := fun i => hiddenAt sg tg eg ct bf ph w bi bh (i 0) (i 1)

end Arrays

end Cert.LstmSpec

end
-- ==== Proof.GatePayload.lean ====
/-
  The kernel body's gate matrix at an entry.

  At one grid point the body holds a block of 1024 rows. It adds the two node-row blocks, forms the time encoding
  cos(t_r * f_k + phi_k) from the block's column of times and the rows of frequencies and phases, lays these and the
  edge-row block side by side as a [1024, 384] matrix, multiplies it into the [384, 1536] weight block from a zero
  accumulator (the narrowing to bf16 is the identity on extended reals) and adds the bias row to every row. Read at
  entry (r, q) this is the specification's gate: the sum over the 384 columns k of feature(r, k) * W(k, q), plus
  the bias at q.
-/
import proofs.«167224_j36593121362101_1_alg».proof.Proof.Gen.KernelIdeal.Skeleton
import proofs.«167224_j36593121362101_1_alg».proof.Proof.LstmSpec
import Idealize.ShloMosaic.Lib.Pipeline.Value
import Idealize.ShloMosaic.Lib.ValueIdx
import Idealize.ShloMosaic.PureOps.Ideal.Laws

noncomputable section

open scoped BigOperators

namespace Cert.KernelIdeal.GatePayload

open Cert.KernelIdeal Cert.KernelIdeal.Gen Idealize.ShloMosaic Idealize.ShloMosaic.ValueIdx Cert.LstmSpec

/-! ## Three blocks side by side -/

/-- Three [1024, 128] blocks joined along the columns, at (r, k): the block that column k falls in, at its own column. -/
theorem joined_at (A B C : FVec Ideal S1024x128 .f32) (r : Fin 1024) (k : Fin 384) :
    concatenate S1024x384 1 [⟨S1024x128, A⟩, ⟨S1024x128, B⟩, ⟨S1024x128, C⟩]
      concatenates_S1024x128_S1024x128_S1024x128_S1024x384_d1 (ix2 r k)
      = feat (fun k' => A (ix2 r k')) (fun k' => B (ix2 r k')) (fun k' => C (ix2 r k')) k := by
  have hk : k.val < 384 := k.isLt
  by_cases h1 : k.val < 128
  · rw [feat_lo _ _ _ k h1]
    refine concatenate_apply_piece (1 : Fin 2) [⟨S1024x128, A⟩, ⟨S1024x128, B⟩, ⟨S1024x128, C⟩] _ (ix2 r k) 0 (Nat.zero_lt_succ _) S1024x128 A rfl rfl 0 rfl
      (ix2 r ⟨k.val, h1⟩) (fun b hb => ?_) ?_
    · match b with
      | ⟨0, _⟩ => rfl
      | ⟨1, _⟩ => exact absurd rfl hb
    · show 0 + k.val = k.val; omega
  · by_cases h2 : k.val < 256
    · rw [feat_mid _ _ _ k h1 h2]
      refine concatenate_apply_piece (1 : Fin 2) [⟨S1024x128, A⟩, ⟨S1024x128, B⟩, ⟨S1024x128, C⟩] _ (ix2 r k) 1 (Nat.succ_lt_succ (Nat.zero_lt_succ _)) S1024x128 B rfl rfl 128 rfl
        (ix2 r ⟨k.val - 128, by omega⟩) (fun b hb => ?_) ?_
      · match b with
        | ⟨0, _⟩ => rfl
        | ⟨1, _⟩ => exact absurd rfl hb
      · show 128 + (k.val - 128) = k.val; omega
    · rw [feat_hi _ _ _ k h1 h2]
      refine concatenate_apply_piece (1 : Fin 2) [⟨S1024x128, A⟩, ⟨S1024x128, B⟩, ⟨S1024x128, C⟩] _ (ix2 r k) 2 (Nat.succ_lt_succ (Nat.succ_lt_succ (Nat.zero_lt_succ _))) S1024x128 C rfl rfl 256 rfl
        (ix2 r ⟨k.val - 256, by omega⟩) (fun b hb => ?_) ?_
      · match b with
        | ⟨0, _⟩ => rfl
        | ⟨1, _⟩ => exact absurd rfl hb
      · show 256 + (k.val - 256) = k.val; omega

/-! ## The time encoding -/

/-- The column of times laid over the 128 columns, at (r, k): the time of row r. -/
theorem times_at (T : FVec Ideal S1024x1 .f32) (r : Fin 1024) (k : Fin 128) :
    broadcastTo S1024x128 T broadcasts_S1024x1_S1024x128 (ix2 r k) = T (ix2 r 0) :=
  broadcastTo_apply T _ (ix2 r k) (ix2 r 0) (fun a => match a with
    | ⟨0, _⟩ => by show r.val = if (1024 : Nat) = 1 then 0 else r.val; rw [if_neg (by decide)]
    | ⟨1, _⟩ => by show (0 : Nat) = if (1 : Nat) = 1 then 0 else k.val; rw [if_pos rfl])

/-- A [1, 128] row laid over the 1024 rows, at (r, k): the row at column k. -/
theorem row128_at (R : FVec Ideal S1x128 .f32) (r : Fin 1024) (k : Fin 128) :
    broadcastTo S1024x128 R broadcasts_S1x128_S1024x128 (ix2 r k) = R (ix2 0 k) :=
  broadcastTo_apply R _ (ix2 r k) (ix2 0 k) (fun a => match a with
    | ⟨0, _⟩ => by show (0 : Nat) = if (1 : Nat) = 1 then 0 else r.val; rw [if_pos rfl]
    | ⟨1, _⟩ => by show k.val = if (128 : Nat) = 1 then 0 else k.val; rw [if_neg (by decide)])

/-- The [1, 1536] bias row laid over the 1024 rows, at (r, q): the bias at column q. -/
theorem row1536_at (R : FVec Ideal S1x1536 .f32) (r : Fin 1024) (q : Fin 1536) :
    broadcastTo S1024x1536 R broadcasts_S1x1536_S1024x1536 (ix2 r q) = R (ix2 0 q) :=
  broadcastTo_apply R _ (ix2 r q) (ix2 0 q) (fun a => match a with
    | ⟨0, _⟩ => by show (0 : Nat) = if (1 : Nat) = 1 then 0 else r.val; rw [if_pos rfl]
    | ⟨1, _⟩ => by show q.val = if (1536 : Nat) = 1 then 0 else q.val; rw [if_neg (by decide)])

/-! ## The matrix product -/

/-- The left factor's row is the result's row. -/
theorem lhs_D_0 (i : S1024x1536.Idx) (q : dot_S1024x384_S384x1536_S1024x1536_1_0_0_1_n_n.contr.Idx) :
    (dot_S1024x384_S384x1536_S1024x1536_1_0_0_1_n_n.lhsIdx i q 0).val = (i 0).val := by
  unfold DotDims.lhsIdx
  rw [dif_neg (show ¬(0 : Fin S1024x384.rank) ∈ dot_S1024x384_S384x1536_S1024x1536_1_0_0_1_n_n.lhsBatch by decide), dif_pos (show (0 : Fin S1024x384.rank) ∈ dot_S1024x384_S384x1536_S1024x1536_1_0_0_1_n_n.lhsNonContracting by decide)]
  rfl
/-- The left factor's column is the summation index. -/
theorem lhs_D_1 (i : S1024x1536.Idx) (q : dot_S1024x384_S384x1536_S1024x1536_1_0_0_1_n_n.contr.Idx) :
    (dot_S1024x384_S384x1536_S1024x1536_1_0_0_1_n_n.lhsIdx i q 1).val = (q ⟨0, by decide⟩).val :=
  dot_S1024x384_S384x1536_S1024x1536_1_0_0_1_n_n.lhsIdx_val_of_single rfl i q
/-- The right factor's row is the summation index. -/
theorem rhs_D_0 (i : S1024x1536.Idx) (q : dot_S1024x384_S384x1536_S1024x1536_1_0_0_1_n_n.contr.Idx) :
    (dot_S1024x384_S384x1536_S1024x1536_1_0_0_1_n_n.rhsIdx i q 0).val = (q ⟨0, by decide⟩).val :=
  dot_S1024x384_S384x1536_S1024x1536_1_0_0_1_n_n.rhsIdx_val_of_single rfl i q
/-- The right factor's column is the result's column. -/
theorem rhs_D_1 (i : S1024x1536.Idx) (q : dot_S1024x384_S384x1536_S1024x1536_1_0_0_1_n_n.contr.Idx) :
    (dot_S1024x384_S384x1536_S1024x1536_1_0_0_1_n_n.rhsIdx i q 1).val = (i 1).val := by
  unfold DotDims.rhsIdx
  rw [dif_neg (show ¬(1 : Fin S384x1536.rank) ∈ dot_S1024x384_S384x1536_S1024x1536_1_0_0_1_n_n.rhsBatch by decide), dif_pos (show (1 : Fin S384x1536.rank) ∈ dot_S1024x384_S384x1536_S1024x1536_1_0_0_1_n_n.rhsNonContracting by decide)]
  rfl

/-- The [1024, 384] by [384, 1536] product from the zero accumulator, at (r, q): the sum over the 384 columns. -/
theorem product_at (X : FVec Ideal S1024x384 .bf16) (W : FVec Ideal S384x1536 .bf16) (r : Fin 1024) (q : Fin 1536) :
    matmul dot_S1024x384_S384x1536_S1024x1536_1_0_0_1_n_n none X W (constant S1024x1536 .f32 0x00000000#32) (ix2 r q)
      = ∑ k : Fin 384, X (ix2 r k) * W (ix2 k q) := by
  simp only [matmul]
  rw [Ideal.matmul_constant_zero_apply, ← Equiv.sum_comp (ValueIdx.contrEquiv1 dot_S1024x384_S384x1536_S1024x1536_1_0_0_1_n_n 384 rfl rfl).symm]
  refine Finset.sum_congr rfl fun k _ => ?_
  have hk := ValueIdx.contrEquiv1_symm_val dot_S1024x384_S384x1536_S1024x1536_1_0_0_1_n_n 384 rfl rfl k
  have el : dot_S1024x384_S384x1536_S1024x1536_1_0_0_1_n_n.lhsIdx (ix2 r q) ((ValueIdx.contrEquiv1 dot_S1024x384_S384x1536_S1024x1536_1_0_0_1_n_n 384 rfl rfl).symm k) = ix2 r k := funext fun a => Fin.ext (by
    match a with
    | ⟨0, _⟩ => exact lhs_D_0 _ _
    | ⟨1, _⟩ => exact (lhs_D_1 _ _).trans hk)
  have er : dot_S1024x384_S384x1536_S1024x1536_1_0_0_1_n_n.rhsIdx (ix2 r q) ((ValueIdx.contrEquiv1 dot_S1024x384_S384x1536_S1024x1536_1_0_0_1_n_n 384 rfl rfl).symm k) = ix2 k q := funext fun a => Fin.ext (by
    match a with
    | ⟨0, _⟩ => exact (rhs_D_0 _ _).trans hk
    | ⟨1, _⟩ => exact rhs_D_1 _ _)
  rw [el, er]

/-! ## The gate matrix -/

section Gate

variable (P0 P1 : Vec Ideal S1024x128 .f32) (P2 : Vec Ideal S1024x1 .f32) (P3 P4 : Vec Ideal S1x128 .f32)
  (P5 : Vec Ideal S1024x128 .f32) (P6 : Vec Ideal S384x1536 .bf16) (P7 : Vec Ideal S1x1536 .f32)

/-- The block's feature matrix at (r, k): node rows added, the time encoding, the edge rows, side by side. -/
theorem feat_row (A B : FVec Ideal S1024x128 .f32) (T : FVec Ideal S1024x1 .f32) (Fq Ph : FVec Ideal S1x128 .f32)
    (E : FVec Ideal S1024x128 .f32) (r : Fin 1024) (k : Fin 384) :
    concatenate S1024x384 1
        [⟨S1024x128, addf A B⟩,
         ⟨S1024x128, cos (addf (mulf (broadcastTo S1024x128 T broadcasts_S1024x1_S1024x128)
            (broadcastTo S1024x128 Fq broadcasts_S1x128_S1024x128)) (broadcastTo S1024x128 Ph broadcasts_S1x128_S1024x128))⟩,
         ⟨S1024x128, E⟩]
        concatenates_S1024x128_S1024x128_S1024x128_S1024x384_d1 (ix2 r k)
      = feat (fun k' => A (ix2 r k') + B (ix2 r k'))
          (fun k' => Ideal.cos (T (ix2 r 0) * Fq (ix2 0 k') + Ph (ix2 0 k'))) (fun k' => E (ix2 r k')) k := by
  rw [joined_at]
  have h2 : ∀ k' : Fin 128,
      cos (addf (mulf (broadcastTo S1024x128 T broadcasts_S1024x1_S1024x128)
        (broadcastTo S1024x128 Fq broadcasts_S1x128_S1024x128)) (broadcastTo S1024x128 Ph broadcasts_S1x128_S1024x128)) (ix2 r k')
        = Ideal.cos (T (ix2 r 0) * Fq (ix2 0 k') + Ph (ix2 0 k')) := fun k' => by
    show Ideal.cos (broadcastTo S1024x128 T broadcasts_S1024x1_S1024x128 (ix2 r k')
      * broadcastTo S1024x128 Fq broadcasts_S1x128_S1024x128 (ix2 r k')
      + broadcastTo S1024x128 Ph broadcasts_S1x128_S1024x128 (ix2 r k')) = _
    rw [times_at, row128_at, row128_at]
  exact congrArg (fun f => feat (fun k' => A (ix2 r k') + B (ix2 r k')) f (fun k' => E (ix2 r k')) k) (funext h2)

/-- The body's gate matrix as its tree of vector operations. -/
theorem gates_tree : k0_pay1 P0 P1 P2 P3 P4 P5 P6 P7
    = addf (matmul dot_S1024x384_S384x1536_S1024x1536_1_0_0_1_n_n none
        (truncf .bf16 (concatenate S1024x384 1
          [⟨S1024x128, addf (shapeCast S1024x128 P0 shapeCasts_S1024x128_S1024x128 : FVec Ideal S1024x128 .f32) (shapeCast S1024x128 P1 shapeCasts_S1024x128_S1024x128 : FVec Ideal S1024x128 .f32)⟩,
           ⟨S1024x128, cos (addf (mulf (broadcastTo S1024x128 (shapeCast S1024x1 P2 shapeCasts_S1024x1_S1024x1 : FVec Ideal S1024x1 .f32) broadcasts_S1024x1_S1024x128)
              (broadcastTo S1024x128 (shapeCast S1x128 P3 shapeCasts_S1x128_S1x128 : FVec Ideal S1x128 .f32) broadcasts_S1x128_S1024x128))
              (broadcastTo S1024x128 (shapeCast S1x128 P4 shapeCasts_S1x128_S1x128 : FVec Ideal S1x128 .f32) broadcasts_S1x128_S1024x128))⟩,
           ⟨S1024x128, (shapeCast S1024x128 P5 shapeCasts_S1024x128_S1024x128 : FVec Ideal S1024x128 .f32)⟩]
          concatenates_S1024x128_S1024x128_S1024x128_S1024x384_d1 : FVec Ideal S1024x384 .f32) bitsLt_bf16_f32)
        (shapeCast S384x1536 P6 shapeCasts_S384x1536_S384x1536 : FVec Ideal S384x1536 .bf16) (constant S1024x1536 .f32 0x00000000#32))
      (broadcastTo S1024x1536 (shapeCast S1x1536 P7 shapeCasts_S1x1536_S1x1536 : FVec Ideal S1x1536 .f32) broadcasts_S1x1536_S1024x1536) := rfl

/-- THE GATE MATRIX AT (r, q): the block's feature row r against column q of the weight block, plus the bias at q. -/
theorem gates_at (r : Fin 1024) (q : Fin 1536) :
    k0_pay1 P0 P1 P2 P3 P4 P5 P6 P7 (ix2 r q)
      = gate (feat (fun k => P0 (ix2 r k) + P1 (ix2 r k))
            (fun k => Ideal.cos (P2 (ix2 r 0) * P3 (ix2 0 k) + P4 (ix2 0 k))) (fun k => P5 (ix2 r k)))
          (fun k => P6 (ix2 k q)) (P7 (ix2 0 q)) := by
  rw [gates_tree]
  simp only [shapeCast_self]
  rw [addf_apply, product_at, row1536_at]
  unfold gate
  refine congrArg (· + P7 (ix2 0 q)) (Finset.sum_congr rfl fun k _ => ?_)
  rw [truncf_apply, feat_row]
  simp only [shapeCast_self]

end Gate

end Cert.KernelIdeal.GatePayload

end
-- ==== Proof.KernelEntry.lean ====
/-
  What the kernel's staged arrays hold when the region is entered.

  Before the region the host normalises each index array (a negative index has the table's length added), gathers the
  rows of the node table at the source and target indices and of the edge table at the edge indices, views the times
  as a column and the frequencies and phases as rows, transposes the weights (and narrows them to bf16, the identity on
  extended reals), and adds the two biases into one row.
-/
import proofs.«167224_j36593121362101_1_alg».proof.Proof.Gen.KernelIdeal.Frame
import Idealize.ShloMosaic.Lib.StableHlo.Run
import Idealize.ShloMosaic.PureOps.Ideal

noncomputable section

namespace Cert.KernelIdeal.Entry

open Cert.KernelIdeal Cert.KernelIdeal.Gen Idealize.ShloMosaic Idealize.ShloMosaic.TcCoe Idealize.SL.Sem
open Idealize.ShloMosaic.StableHlo

/-- An index array as the gather's column of start indices: a negative index has n added. -/
def startColumn (n : BitVec 32) (x : (⟨S131072, .i32⟩ : BufTy).Contents (Elt Ideal)) : (⟨S131072x1, .i32⟩ : BufTy).Contents (Elt Ideal) :=
  broadcastInDim S131072x1 ![0] bcast_S131072_S131072x1_0
    (select (cmpi .slt x (broadcastInDim S131072 ![] bcast_S_S131072 (constantI S_ 32 0#32)))
      (addi x (broadcastInDim S131072 ![] bcast_S_S131072 (constantI S_ 32 n))) x)

/-- The rows of the node table at an index array. -/
def nodeRows (x : (⟨S131072, .i32⟩ : BufTy).Contents (Elt Ideal)) (tbl : (⟨S100000x128, .f32⟩ : BufTy).Contents (Elt Ideal)) :
    (⟨S131072x128, .f32⟩ : BufTy).Contents (Elt Ideal) :=
  Host.gather gather_S100000x128_S131072x1_S131072x128_1_0_n_n_0_1_1128 tbl (startColumn 100000#32 x)

/-- The rows of the edge table at an index array. -/
def edgeRows (x : (⟨S131072, .i32⟩ : BufTy).Contents (Elt Ideal)) (tbl : (⟨S500000x128, .f32⟩ : BufTy).Contents (Elt Ideal)) :
    (⟨S131072x128, .f32⟩ : BufTy).Contents (Elt Ideal) :=
  Host.gather gather_S500000x128_S131072x1_S131072x128_1_0_n_n_0_1_1128 tbl (startColumn 500000#32 x)

variable (m : (ℓ : Loc nD τ sig) → Buf (Elt Ideal) ℓ)

set_option maxHeartbeats 2000000 in
theorem V_v6 (c : Dev nD) : (V m c main_v6 : S131072x128.Idx → EReal)
    = nodeRows (m ((c : Thread nD τ).loc main_arg0)) (m ((c : Thread nD τ).loc main_arg4)) := by
  dsimp only [V, hostOps0]; after_results_simp; try rfl

set_option maxHeartbeats 2000000 in
theorem V_v13 (c : Dev nD) : (V m c main_v13 : S131072x128.Idx → EReal)
    = nodeRows (m ((c : Thread nD τ).loc main_arg1)) (m ((c : Thread nD τ).loc main_arg4)) := by
  dsimp only [V, hostOps0]; after_results_simp; try rfl

set_option maxHeartbeats 2000000 in
theorem V_v20 (c : Dev nD) : (V m c main_v20 : S131072x128.Idx → EReal)
    = edgeRows (m ((c : Thread nD τ).loc main_arg3)) (m ((c : Thread nD τ).loc main_arg5)) := by
  dsimp only [V, hostOps0]; after_results_simp; try rfl

set_option maxHeartbeats 2000000 in
theorem V_v21 (c : Dev nD) : (V m c main_v21 : S131072x1.Idx → EReal)
    = shapeCast S131072x1 (m ((c : Thread nD τ).loc main_arg2)) shapeCasts_S131072_S131072x1 := by
  dsimp only [V, hostOps0]; after_results_simp; try rfl

set_option maxHeartbeats 2000000 in
theorem V_v22 (c : Dev nD) : (V m c main_v22 : S1x128.Idx → EReal)
    = shapeCast S1x128 (m ((c : Thread nD τ).loc main_arg6)) shapeCasts_S128_S1x128 := by
  dsimp only [V, hostOps0]; after_results_simp; try rfl

set_option maxHeartbeats 2000000 in
theorem V_v23 (c : Dev nD) : (V m c main_v23 : S1x128.Idx → EReal)
    = shapeCast S1x128 (m ((c : Thread nD τ).loc main_arg7)) shapeCasts_S128_S1x128 := by
  dsimp only [V, hostOps0]; after_results_simp; try rfl

set_option maxHeartbeats 2000000 in
theorem V_v25 (c : Dev nD) : (V m c main_v25 : S384x1536.Idx → EReal)
    = truncf .bf16 (transpose S384x1536 [1, 0] (m ((c : Thread nD τ).loc main_arg8)) transposes_S1536x384_S384x1536_1_0 : FVec Ideal S384x1536 .f32) bitsLt_bf16_f32 := by
  dsimp only [V, hostOps0]; after_results_simp; try rfl

set_option maxHeartbeats 2000000 in
theorem V_v27 (c : Dev nD) : (V m c main_v27 : S1x1536.Idx → EReal)
    = shapeCast S1x1536 (addf (F := Ideal) (s := S1536) (φ := .f32) (m ((c : Thread nD τ).loc main_arg10)) (m ((c : Thread nD τ).loc main_arg11))) shapeCasts_S1536_S1x1536 := by
  dsimp only [V, hostOps0]; after_results_simp; try rfl

end Cert.KernelIdeal.Entry

end
-- ==== Proof.KernelValue.lean ====
/-
  The kernel's two result arrays as the specification's arrays.

  Grid point t stages rows 1024 t .. 1024 t + 1023 of the three gathered arrays and of the column of times, and the
  whole frequency row, phase row, weight matrix and bias row; what it writes back to rows 1024 t .. 1024 t + 1023 of
  the two results is, entry by entry, the cell state and the hidden state of those rows. The 128 blocks tile the
  131072 rows, so after the run the two arrays are the specification's, first over the staged arrays and then, the
  staged arrays read back as views of the arguments, over the arguments themselves.
-/
import proofs.«167224_j36593121362101_1_alg».proof.Proof.Gen.KernelIdeal.Value
import proofs.«167224_j36593121362101_1_alg».proof.Proof.GatePayload
import proofs.«167224_j36593121362101_1_alg».proof.Proof.KernelEntry
import proofs.«167224_j36593121362101_1_alg».proof.Proof.LstmSpec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.KValue

open Cert.KernelIdeal Cert.KernelIdeal.Gen Idealize.ShloMosaic Idealize.ShloMosaic.TcCoe Idealize.SL.Sem
open Idealize.ShloMosaic.ValueIdx Cert.LstmSpec
open Idealize.ShloMosaic.Pipeline (Dat)

/-! ## The specification over the staged arrays -/

section Staged

variable (SG TG EG : FVec Ideal S131072x128 .f32) (CT : FVec Ideal S131072x1 .f32) (BF PH : FVec Ideal S1x128 .f32)
  (WT : FVec Ideal S384x1536 .bf16) (B : FVec Ideal S1x1536 .f32)

/-- The gate at row p, column q, from the arrays as the region stages them: the times a column, the frequencies, phases
    and bias rows, the weights already transposed. -/
def sgate (p : Fin 131072) (q : Fin 1536) : EReal :=
  gate (feat (fun k => SG (ix2 p k) + TG (ix2 p k)) (fun k => Ideal.cos (CT (ix2 p 0) * BF (ix2 0 k) + PH (ix2 0 k)))
      (fun k => EG (ix2 p k)))
    (fun k => WT (ix2 k q)) (B (ix2 0 q))

/-- The cell state at row p, column j, from the staged arrays. -/
def scell (p : Fin 131072) (j : Fin 384) : EReal :=
  cell (sgate SG TG EG CT BF PH WT B p ⟨j.val, by omega⟩) (sgate SG TG EG CT BF PH WT B p ⟨j.val + 768, by omega⟩)

/-- The hidden state at row p, column j, from the staged arrays. -/
def shidden (p : Fin 131072) (j : Fin 384) : EReal :=
  hidden (sgate SG TG EG CT BF PH WT B p ⟨j.val + 1152, by omega⟩) (scell SG TG EG CT BF PH WT B p j)

variable (P0 P1 : Vec Ideal S1024x128 .f32) (P2 : Vec Ideal S1024x1 .f32) (P3 P4 : Vec Ideal S1x128 .f32)
  (P5 : Vec Ideal S1024x128 .f32) (P6 : Vec Ideal S384x1536 .bf16) (P7 : Vec Ideal S1x1536 .f32)

/-- If the blocks P0, P1, P5, P2 are rows 1024 T .. of the staged arrays and the other four blocks are the staged arrays
    themselves, the body's gate matrix at (r, q) is the gate of row 1024 T + r. -/
theorem gate_block (T : Nat) (hT : T < 128)
    (h0 : ∀ (r : Fin 1024) (k : Fin 128), P0 (ix2 r k) = SG (ix2 ⟨1024 * T + r.val, by omega⟩ k))
    (h1 : ∀ (r : Fin 1024) (k : Fin 128), P1 (ix2 r k) = TG (ix2 ⟨1024 * T + r.val, by omega⟩ k))
    (h2 : ∀ (r : Fin 1024), P2 (ix2 r 0) = CT (ix2 ⟨1024 * T + r.val, by omega⟩ 0))
    (h3 : P3 = BF) (h4 : P4 = PH)
    (h5 : ∀ (r : Fin 1024) (k : Fin 128), P5 (ix2 r k) = EG (ix2 ⟨1024 * T + r.val, by omega⟩ k))
    (h6 : P6 = WT) (h7 : P7 = B) (r : Fin 1024) (q : Fin 1536) :
    k0_pay1 P0 P1 P2 P3 P4 P5 P6 P7 (ix2 r q) = sgate SG TG EG CT BF PH WT B ⟨1024 * T + r.val, by omega⟩ q := by
  rw [GatePayload.gates_at]
  subst h3 h4 h6 h7
  unfold sgate
  simp only [h0, h1, h2, h5]

/-- Under the same hypotheses the block the body leaves for the cell state, at (r, j), is the cell state of row 1024 T + r. -/
theorem cell_block (T : Nat) (hT : T < 128)
    (h0 : ∀ (r : Fin 1024) (k : Fin 128), P0 (ix2 r k) = SG (ix2 ⟨1024 * T + r.val, by omega⟩ k))
    (h1 : ∀ (r : Fin 1024) (k : Fin 128), P1 (ix2 r k) = TG (ix2 ⟨1024 * T + r.val, by omega⟩ k))
    (h2 : ∀ (r : Fin 1024), P2 (ix2 r 0) = CT (ix2 ⟨1024 * T + r.val, by omega⟩ 0))
    (h3 : P3 = BF) (h4 : P4 = PH)
    (h5 : ∀ (r : Fin 1024) (k : Fin 128), P5 (ix2 r k) = EG (ix2 ⟨1024 * T + r.val, by omega⟩ k))
    (h6 : P6 = WT) (h7 : P7 = B) (r : Fin 1024) (j : Fin 384) :
    Value.E9 P0 P1 P2 P3 P4 P5 P6 P7 (ix2 r j) = scell SG TG EG CT BF PH WT B ⟨1024 * T + r.val, by omega⟩ j := by
  have hj : j.val < 384 := j.isLt
  have e0 : Value.ix9_0 (ix2 r j) = ix2 r ⟨j.val, by omega⟩ :=
    funext fun a => Fin.ext (by match a with | ⟨0, _⟩ => rfl | ⟨1, _⟩ => rfl)
  have e1 : Value.ix9_1 (ix2 r j) = ix2 r ⟨j.val + 768, by omega⟩ :=
    funext fun a => Fin.ext (by match a with | ⟨0, _⟩ => rfl | ⟨1, _⟩ => rfl)
  show Ideal.logistic (k0_pay1 P0 P1 P2 P3 P4 P5 P6 P7 (Value.ix9_0 (ix2 r j)))
      * Ideal.tanh (k0_pay1 P0 P1 P2 P3 P4 P5 P6 P7 (Value.ix9_1 (ix2 r j))) = _
  rw [e0, e1, gate_block SG TG EG CT BF PH WT B P0 P1 P2 P3 P4 P5 P6 P7 T hT h0 h1 h2 h3 h4 h5 h6 h7,
    gate_block SG TG EG CT BF PH WT B P0 P1 P2 P3 P4 P5 P6 P7 T hT h0 h1 h2 h3 h4 h5 h6 h7]
  rfl

/-- And the block it leaves for the hidden state, at (r, j), is the hidden state of row 1024 T + r. -/
theorem hidden_block (T : Nat) (hT : T < 128)
    (h0 : ∀ (r : Fin 1024) (k : Fin 128), P0 (ix2 r k) = SG (ix2 ⟨1024 * T + r.val, by omega⟩ k))
    (h1 : ∀ (r : Fin 1024) (k : Fin 128), P1 (ix2 r k) = TG (ix2 ⟨1024 * T + r.val, by omega⟩ k))
    (h2 : ∀ (r : Fin 1024), P2 (ix2 r 0) = CT (ix2 ⟨1024 * T + r.val, by omega⟩ 0))
    (h3 : P3 = BF) (h4 : P4 = PH)
    (h5 : ∀ (r : Fin 1024) (k : Fin 128), P5 (ix2 r k) = EG (ix2 ⟨1024 * T + r.val, by omega⟩ k))
    (h6 : P6 = WT) (h7 : P7 = B) (r : Fin 1024) (j : Fin 384) :
    Value.E8 P0 P1 P2 P3 P4 P5 P6 P7 (ix2 r j) = shidden SG TG EG CT BF PH WT B ⟨1024 * T + r.val, by omega⟩ j := by
  have hj : j.val < 384 := j.isLt
  have e0 : Value.ix8_0 (ix2 r j) = ix2 r ⟨j.val + 1152, by omega⟩ :=
    funext fun a => Fin.ext (by match a with | ⟨0, _⟩ => rfl | ⟨1, _⟩ => rfl)
  have e1 : Value.ix8_1 (ix2 r j) = ix2 r ⟨j.val, by omega⟩ :=
    funext fun a => Fin.ext (by match a with | ⟨0, _⟩ => rfl | ⟨1, _⟩ => rfl)
  have e2 : Value.ix8_2 (ix2 r j) = ix2 r ⟨j.val + 768, by omega⟩ :=
    funext fun a => Fin.ext (by match a with | ⟨0, _⟩ => rfl | ⟨1, _⟩ => rfl)
  show Ideal.logistic (k0_pay1 P0 P1 P2 P3 P4 P5 P6 P7 (Value.ix8_0 (ix2 r j)))
      * Ideal.tanh (Ideal.logistic (k0_pay1 P0 P1 P2 P3 P4 P5 P6 P7 (Value.ix8_1 (ix2 r j)))
        * Ideal.tanh (k0_pay1 P0 P1 P2 P3 P4 P5 P6 P7 (Value.ix8_2 (ix2 r j)))) = _
  rw [e0, e1, e2, gate_block SG TG EG CT BF PH WT B P0 P1 P2 P3 P4 P5 P6 P7 T hT h0 h1 h2 h3 h4 h5 h6 h7,
    gate_block SG TG EG CT BF PH WT B P0 P1 P2 P3 P4 P5 P6 P7 T hT h0 h1 h2 h3 h4 h5 h6 h7,
    gate_block SG TG EG CT BF PH WT B P0 P1 P2 P3 P4 P5 P6 P7 T hT h0 h1 h2 h3 h4 h5 h6 h7]
  rfl

end Staged

/-! ## The windows' blocks -/

variable (m : (ℓ : Loc nD τ sig) → Buf (Elt Ideal) ℓ) (ρ : Dev nD → PrngReg)

/-- The zero offsets of a whole-block access. -/
theorem hz : (![0, 0] : Fin 2 → Nat) = fun _ => 0 := funext fun a => by fin_cases a <;> rfl

/-- There are 128 grid points. -/
theorem tlt (t : Fin cfg0.N) : t.val < 128 := lt_of_lt_of_eq t.isLt N_0

/-- The printed index maps, decided over the grid: the four row-blocked inputs and the two outputs are at block (t, 0),
    the four whole-array inputs at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

/-- Block t of the gathered source rows: rows 1024 t + r. -/
theorem blk0 (c : Dev nD) (t : Fin cfg0.N) (r : Fin 1024) (k : Fin 128) :
    (iblk m c 0 t : Vec Ideal S1024x128 .f32) (ix2 r k)
      = (V m c main_v6 : S131072x128.Idx → EReal) (ix2 ⟨1024 * t.val + r.val, by have := tlt t; omega⟩ k) := by
  show V m c main_v6 (((cfg0.win 0).blk t).view.emb (ix2 r k)) = _
  refine congrArg _ (funext fun a => Fin.ext ?_)
  obtain ⟨e00, e01, e10, e11, e20, e21, e30, e31, e40, e41, e50, e51, e60, e61, e70, e71, e80, e81, e90, e91⟩ := idx_facts t
  match a with
  | ⟨0, _⟩ => show win0_0.index t (0 : Fin 2) * 1024 + 1 * r.val = 1024 * t.val + r.val; omega
  | ⟨1, _⟩ => show win0_0.index t (1 : Fin 2) * 128 + 1 * k.val = k.val; omega

/-- Block t of the gathered target rows. -/
theorem blk1 (c : Dev nD) (t : Fin cfg0.N) (r : Fin 1024) (k : Fin 128) :
    (iblk m c 1 t : Vec Ideal S1024x128 .f32) (ix2 r k)
      = (V m c main_v13 : S131072x128.Idx → EReal) (ix2 ⟨1024 * t.val + r.val, by have := tlt t; omega⟩ k) := by
  show V m c main_v13 (((cfg0.win 1).blk t).view.emb (ix2 r k)) = _
  refine congrArg _ (funext fun a => Fin.ext ?_)
  obtain ⟨e00, e01, e10, e11, e20, e21, e30, e31, e40, e41, e50, e51, e60, e61, e70, e71, e80, e81, e90, e91⟩ := idx_facts t
  match a with
  | ⟨0, _⟩ => show win0_1.index t (0 : Fin 2) * 1024 + 1 * r.val = 1024 * t.val + r.val; omega
  | ⟨1, _⟩ => show win0_1.index t (1 : Fin 2) * 128 + 1 * k.val = k.val; omega

/-- Block t of the gathered edge rows. -/
theorem blk2 (c : Dev nD) (t : Fin cfg0.N) (r : Fin 1024) (k : Fin 128) :
    (iblk m c 2 t : Vec Ideal S1024x128 .f32) (ix2 r k)
      = (V m c main_v20 : S131072x128.Idx → EReal) (ix2 ⟨1024 * t.val + r.val, by have := tlt t; omega⟩ k) := by
  show V m c main_v20 (((cfg0.win 2).blk t).view.emb (ix2 r k)) = _
  refine congrArg _ (funext fun a => Fin.ext ?_)
  obtain ⟨e00, e01, e10, e11, e20, e21, e30, e31, e40, e41, e50, e51, e60, e61, e70, e71, e80, e81, e90, e91⟩ := idx_facts t
  match a with
  | ⟨0, _⟩ => show win0_2.index t (0 : Fin 2) * 1024 + 1 * r.val = 1024 * t.val + r.val; omega
  | ⟨1, _⟩ => show win0_2.index t (1 : Fin 2) * 128 + 1 * k.val = k.val; omega

/-- Block t of the column of times: rows 1024 t + r. -/
theorem blk3 (c : Dev nD) (t : Fin cfg0.N) (r : Fin 1024) :
    (iblk m c 3 t : Vec Ideal S1024x1 .f32) (ix2 r 0)
      = (V m c main_v21 : S131072x1.Idx → EReal) (ix2 ⟨1024 * t.val + r.val, by have := tlt t; omega⟩ 0) := by
  show V m c main_v21 (((cfg0.win 3).blk t).view.emb (ix2 r 0)) = _
  refine congrArg _ (funext fun a => Fin.ext ?_)
  obtain ⟨e00, e01, e10, e11, e20, e21, e30, e31, e40, e41, e50, e51, e60, e61, e70, e71, e80, e81, e90, e91⟩ := idx_facts t
  match a with
  | ⟨0, _⟩ => show win0_3.index t (0 : Fin 2) * 1024 + 1 * r.val = 1024 * t.val + r.val; omega
  | ⟨1, _⟩ => show win0_3.index t (1 : Fin 2) * 1 + 1 * 0 = 0; omega

/-- The frequency row is staged whole at every point. -/
theorem blk4 (c : Dev nD) (t : Fin cfg0.N) : (iblk m c 4 t : S1x128.Idx → _) = V m c main_v22 := by
  funext y
  show V m c main_v22 (((cfg0.win 4).blk t).view.emb y) = V m c main_v22 y
  refine congrArg _ (funext fun a => Fin.ext ?_)
  obtain ⟨e00, e01, e10, e11, e20, e21, e30, e31, e40, e41, e50, e51, e60, e61, e70, e71, e80, e81, e90, e91⟩ := idx_facts t
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- The phase row is staged whole at every point. -/
theorem blk5 (c : Dev nD) (t : Fin cfg0.N) : (iblk m c 5 t : S1x128.Idx → _) = V m c main_v23 := by
  funext y
  show V m c main_v23 (((cfg0.win 5).blk t).view.emb y) = V m c main_v23 y
  refine congrArg _ (funext fun a => Fin.ext ?_)
  obtain ⟨e00, e01, e10, e11, e20, e21, e30, e31, e40, e41, e50, e51, e60, e61, e70, e71, e80, e81, e90, e91⟩ := idx_facts t
  match a with
  | ⟨0, _⟩ => show win0_5.index t (0 : Fin 2) * 1 + 1 * (y 0).val = (y 0).val; omega
  | ⟨1, _⟩ => show win0_5.index t (1 : Fin 2) * 128 + 1 * (y 1).val = (y 1).val; omega

/-- The weight matrix is staged whole at every point. -/
theorem blk6 (c : Dev nD) (t : Fin cfg0.N) : (iblk m c 6 t : S384x1536.Idx → _) = V m c main_v25 := by
  funext y
  show V m c main_v25 (((cfg0.win 6).blk t).view.emb y) = V m c main_v25 y
  refine congrArg _ (funext fun a => Fin.ext ?_)
  obtain ⟨e00, e01, e10, e11, e20, e21, e30, e31, e40, e41, e50, e51, e60, e61, e70, e71, e80, e81, e90, e91⟩ := idx_facts t
  match a with
  | ⟨0, _⟩ => show win0_6.index t (0 : Fin 2) * 384 + 1 * (y 0).val = (y 0).val; omega
  | ⟨1, _⟩ => show win0_6.index t (1 : Fin 2) * 1536 + 1 * (y 1).val = (y 1).val; omega

/-- The bias row is staged whole at every point. -/
theorem blk7 (c : Dev nD) (t : Fin cfg0.N) : (iblk m c 7 t : S1x1536.Idx → _) = V m c main_v27 := by
  funext y
  show V m c main_v27 (((cfg0.win 7).blk t).view.emb y) = V m c main_v27 y
  refine congrArg _ (funext fun a => Fin.ext ?_)
  obtain ⟨e00, e01, e10, e11, e20, e21, e30, e31, e40, e41, e50, e51, e60, e61, e70, e71, e80, e81, e90, e91⟩ := idx_facts t
  match a with
  | ⟨0, _⟩ => show win0_7.index t (0 : Fin 2) * 1 + 1 * (y 0).val = (y 0).val; omega
  | ⟨1, _⟩ => show win0_7.index t (1 : Fin 2) * 1536 + 1 * (y 1).val = (y 1).val; omega

/-! ## What each point writes back -/

/-- The cell-state array over the staged arrays. -/
def cellStaged (c : Dev nD) : S131072x384.Idx → EReal := fun i =>
  scell (V m c main_v6) (V m c main_v13) (V m c main_v20) (V m c main_v21) (V m c main_v22) (V m c main_v23) (V m c main_v25) (V m c main_v27) ⟨(i 0).val, (i 0).isLt⟩ ⟨(i 1).val, (i 1).isLt⟩

/-- The hidden-state array over the staged arrays. -/
def hiddenStaged (c : Dev nD) : S131072x384.Idx → EReal := fun i =>
  shidden (V m c main_v6) (V m c main_v13) (V m c main_v20) (V m c main_v21) (V m c main_v22) (V m c main_v23) (V m c main_v25) (V m c main_v27) ⟨(i 0).val, (i 0).isLt⟩ ⟨(i 1).val, (i 1).isLt⟩

/-- Point t writes back block t of the cell-state array. -/
theorem flushed9_eq (c : Dev nD) (t : Fin cfg0.N) :
    (dats m 0 c).flushed 9 t = ((cfg0.win 9).blk t).view.read (Elt Ideal) (cellStaged m c) := by
  rw [Value.flushed9]
  unfold out0_9
  funext y
  obtain ⟨r, j, rfl⟩ : ∃ (r : Fin 1024) (j : Fin 384), y = ix2 r j := ⟨y 0, y 1, eq_ix2 (n0 := 1024) (n1 := 384) y⟩
  show View.canon ([⟨r0_5, k0_pay2 (View.ld (iblk m c 0 t) r0_0) (View.ld (iblk m c 1 t) r0_0) (View.ld (iblk m c 3 t) r0_1) (View.ld (iblk m c 4 t) r0_2) (View.ld (iblk m c 5 t) r0_2) (View.ld (iblk m c 2 t) r0_0) (View.ld (iblk m c 6 t) r0_3) (View.ld (iblk m c 7 t) r0_4)⟩] : List (View.Piece (Elt Ideal) S1024x384 .f32)) (ix2 r j)
      = cellStaged m c (((cfg0.win 9).blk t).view.emb (ix2 r j))
  refine (Value.canon9_eq _ _ _ _ _ _ _ _ (ix2 r j)).trans ?_
  simp only [View.ld_unit_zero (S := S1024x128) hz, View.ld_unit_zero (S := S1024x1) hz, View.ld_unit_zero (S := S1x128) hz,
    View.ld_unit_zero (S := S384x1536) hz, View.ld_unit_zero (S := S1x1536) hz]
  refine (cell_block (V m c main_v6) (V m c main_v13) (V m c main_v20) (V m c main_v21) (V m c main_v22) (V m c main_v23) (V m c main_v25) (V m c main_v27) (iblk m c 0 t) (iblk m c 1 t) (iblk m c 3 t) (iblk m c 4 t) (iblk m c 5 t) (iblk m c 2 t) (iblk m c 6 t) (iblk m c 7 t) t.val (tlt t)
    (blk0 m c t) (blk1 m c t) (blk3 m c t) (blk4 m c t) (blk5 m c t) (blk2 m c t) (blk6 m c t) (blk7 m c t) r j).trans ?_
  obtain ⟨e00, e01, e10, e11, e20, e21, e30, e31, e40, e41, e50, e51, e60, e61, e70, e71, e80, e81, e90, e91⟩ := idx_facts t
  unfold cellStaged
  have ep : (⟨1024 * t.val + r.val, by have := tlt t; omega⟩ : Fin 131072)
      = ⟨((((cfg0.win 9).blk t).view.emb (ix2 r j)) 0).val, ((((cfg0.win 9).blk t).view.emb (ix2 r j)) 0).isLt⟩ :=
    Fin.ext (by show 1024 * t.val + r.val = win0_9.index t (0 : Fin 2) * 1024 + 1 * r.val; omega)
  have ej : j = ⟨((((cfg0.win 9).blk t).view.emb (ix2 r j)) 1).val, ((((cfg0.win 9).blk t).view.emb (ix2 r j)) 1).isLt⟩ :=
    Fin.ext (by show j.val = win0_9.index t (1 : Fin 2) * 384 + 1 * j.val; omega)
  rw [ep]
  exact congrArg _ ej

/-- Point t writes back block t of the hidden-state array. -/
theorem flushed8_eq (c : Dev nD) (t : Fin cfg0.N) :
    (dats m 0 c).flushed 8 t = ((cfg0.win 8).blk t).view.read (Elt Ideal) (hiddenStaged m c) := by
  rw [Value.flushed8]
  unfold out0_8
  funext y
  obtain ⟨r, j, rfl⟩ : ∃ (r : Fin 1024) (j : Fin 384), y = ix2 r j := ⟨y 0, y 1, eq_ix2 (n0 := 1024) (n1 := 384) y⟩
  show View.canon ([⟨r0_5, k0_pay3 (View.ld (iblk m c 0 t) r0_0) (View.ld (iblk m c 1 t) r0_0) (View.ld (iblk m c 3 t) r0_1) (View.ld (iblk m c 4 t) r0_2) (View.ld (iblk m c 5 t) r0_2) (View.ld (iblk m c 2 t) r0_0) (View.ld (iblk m c 6 t) r0_3) (View.ld (iblk m c 7 t) r0_4)⟩] : List (View.Piece (Elt Ideal) S1024x384 .f32)) (ix2 r j)
      = hiddenStaged m c (((cfg0.win 8).blk t).view.emb (ix2 r j))
  refine (Value.canon8_eq _ _ _ _ _ _ _ _ (ix2 r j)).trans ?_
  simp only [View.ld_unit_zero (S := S1024x128) hz, View.ld_unit_zero (S := S1024x1) hz, View.ld_unit_zero (S := S1x128) hz,
    View.ld_unit_zero (S := S384x1536) hz, View.ld_unit_zero (S := S1x1536) hz]
  refine (hidden_block (V m c main_v6) (V m c main_v13) (V m c main_v20) (V m c main_v21) (V m c main_v22) (V m c main_v23) (V m c main_v25) (V m c main_v27) (iblk m c 0 t) (iblk m c 1 t) (iblk m c 3 t) (iblk m c 4 t) (iblk m c 5 t) (iblk m c 2 t) (iblk m c 6 t) (iblk m c 7 t) t.val (tlt t)
    (blk0 m c t) (blk1 m c t) (blk3 m c t) (blk4 m c t) (blk5 m c t) (blk2 m c t) (blk6 m c t) (blk7 m c t) r j).trans ?_
  obtain ⟨e00, e01, e10, e11, e20, e21, e30, e31, e40, e41, e50, e51, e60, e61, e70, e71, e80, e81, e90, e91⟩ := idx_facts t
  unfold hiddenStaged
  have ep : (⟨1024 * t.val + r.val, by have := tlt t; omega⟩ : Fin 131072)
      = ⟨((((cfg0.win 8).blk t).view.emb (ix2 r j)) 0).val, ((((cfg0.win 8).blk t).view.emb (ix2 r j)) 0).isLt⟩ :=
    Fin.ext (by show 1024 * t.val + r.val = win0_8.index t (0 : Fin 2) * 1024 + 1 * r.val; omega)
  have ej : j = ⟨((((cfg0.win 8).blk t).view.emb (ix2 r j)) 1).val, ((((cfg0.win 8).blk t).view.emb (ix2 r j)) 1).isLt⟩ :=
    Fin.ext (by show j.val = win0_8.index t (1 : Fin 2) * 384 + 1 * j.val; omega)
  rw [ep]
  exact congrArg _ ej

/-! ## The 128 blocks tile the rows -/

/-- An index is in point t's block of the second result iff each coordinate is in the block's range. -/
theorem mem_blk9 (t : Fin cfg0.N) (i : S131072x384.Idx) :
    i ∈ ((cfg0.win 9).blk t).view.set ↔ ∀ a : Fin 2, win0_9.index t a * S1024x384.size a ≤ (i a).val ∧ (i a).val < win0_9.index t a * S1024x384.size a + S1024x384.size a := by
  show i ∈ ((View.whole main_v28_1).slice (win0_9.rect t)).set ↔ _
  rw [View.set_slice_whole, Rect.mem_set_unit]
  exact Iff.rfl

/-- The same for the first result. -/
theorem mem_blk8 (t : Fin cfg0.N) (i : S131072x384.Idx) :
    i ∈ ((cfg0.win 8).blk t).view.set ↔ ∀ a : Fin 2, win0_8.index t a * S1024x384.size a ≤ (i a).val ∧ (i a).val < win0_8.index t a * S1024x384.size a + S1024x384.size a := by
  show i ∈ ((View.whole main_v28_0).slice (win0_8.rect t)).set ↔ _
  rw [View.set_slice_whole, Rect.mem_set_unit]
  exact Iff.rfl

/-- Row p lies in the block of point p / 1024. -/
theorem cover9 (i : S131072x384.Idx) : ∃ t : Fin cfg0.N, (cfg0.win 9).flush t = true ∧ i ∈ ((cfg0.win 9).blk t).view.set := by
  have hi0 : (i 0).val < 131072 := (i 0).isLt
  have hi1 : (i 1).val < 384 := (i 1).isLt
  have hlt : (i 0).val / 1024 < cfg0.N := lt_of_lt_of_eq (by omega : (i 0).val / 1024 < 128) N_0.symm
  obtain ⟨e00, e01, e10, e11, e20, e21, e30, e31, e40, e41, e50, e51, e60, e61, e70, e71, e80, e81, e90, e91⟩ := idx_facts ⟨(i 0).val / 1024, hlt⟩
  have e90' : win0_9.index ⟨(i 0).val / 1024, hlt⟩ (0 : Fin 2) = (i 0).val / 1024 := e90
  refine ⟨⟨(i 0).val / 1024, hlt⟩, flush0_9 _, ?_⟩
  rw [mem_blk9]
  intro a
  match a with
  | ⟨0, _⟩ => show win0_9.index ⟨(i 0).val / 1024, hlt⟩ (0 : Fin 2) * 1024 ≤ (i 0).val ∧ (i 0).val < win0_9.index ⟨(i 0).val / 1024, hlt⟩ (0 : Fin 2) * 1024 + 1024; omega
  | ⟨1, _⟩ => show win0_9.index ⟨(i 0).val / 1024, hlt⟩ (1 : Fin 2) * 384 ≤ (i 1).val ∧ (i 1).val < win0_9.index ⟨(i 0).val / 1024, hlt⟩ (1 : Fin 2) * 384 + 384; omega

/-- The same for the first result. -/
theorem cover8 (i : S131072x384.Idx) : ∃ t : Fin cfg0.N, (cfg0.win 8).flush t = true ∧ i ∈ ((cfg0.win 8).blk t).view.set := by
  have hi0 : (i 0).val < 131072 := (i 0).isLt
  have hi1 : (i 1).val < 384 := (i 1).isLt
  have hlt : (i 0).val / 1024 < cfg0.N := lt_of_lt_of_eq (by omega : (i 0).val / 1024 < 128) N_0.symm
  obtain ⟨e00, e01, e10, e11, e20, e21, e30, e31, e40, e41, e50, e51, e60, e61, e70, e71, e80, e81, e90, e91⟩ := idx_facts ⟨(i 0).val / 1024, hlt⟩
  have e80' : win0_8.index ⟨(i 0).val / 1024, hlt⟩ (0 : Fin 2) = (i 0).val / 1024 := e80
  refine ⟨⟨(i 0).val / 1024, hlt⟩, flush0_8 _, ?_⟩
  rw [mem_blk8]
  intro a
  match a with
  | ⟨0, _⟩ => show win0_8.index ⟨(i 0).val / 1024, hlt⟩ (0 : Fin 2) * 1024 ≤ (i 0).val ∧ (i 0).val < win0_8.index ⟨(i 0).val / 1024, hlt⟩ (0 : Fin 2) * 1024 + 1024; omega
  | ⟨1, _⟩ => show win0_8.index ⟨(i 0).val / 1024, hlt⟩ (1 : Fin 2) * 384 ≤ (i 1).val ∧ (i 1).val < win0_8.index ⟨(i 0).val / 1024, hlt⟩ (1 : Fin 2) * 384 + 384; omega

/-- After the run the second result array is the cell-state array over the staged arrays. -/
theorem final9 (c : Dev nD) : (dats m 0 c).arrAt 9 cfg0.N = cellStaged m c :=
  (dats m 0 c).arrAt_eq_of_cover 9 (cellStaged m c) (fun t _ => flushed9_eq m c t) cover9

/-- After the run the first result array is the hidden-state array over the staged arrays. -/
theorem final8 (c : Dev nD) : (dats m 0 c).arrAt 8 cfg0.N = hiddenStaged m c :=
  (dats m 0 c).arrAt_eq_of_cover 8 (hiddenStaged m c) (fun t _ => flushed8_eq m c t) cover8

/-! ## The staged arrays read back as views of the arguments -/

section Views

variable {α : Type}

/-- A vector viewed as a column reads, at (p, 0), the vector at p. -/
theorem column_at {a : ℕ} (x : (⟨1, ![a]⟩ : Shape).Idx → α) (h : (⟨1, ![a]⟩ : Shape).ShapeCasts ⟨2, ![a, 1]⟩)
    (p : Fin a) : shapeCast ⟨2, ![a, 1]⟩ x h (ix2 p (0 : Fin 1)) = x (ix1 p) :=
  shapeCast_apply x h _ _ (by
    rw [Shape.rowMajor_val_two, Shape.rowMajor_val_one]
    show p.val = p.val * 1 + 0
    omega)

end Views

/-- The gate over the staged views of the arguments is the specification's gate over the arguments. -/
theorem sgate_views (sg tg eg : FVec Ideal S131072x128 .f32) (ct : FVec Ideal S131072 .f32) (bf ph : FVec Ideal S128 .f32)
    (w : FVec Ideal S1536x384 .f32) (bi bh : FVec Ideal S1536 .f32) (p : Fin 131072) (q : Fin 1536) :
    sgate sg tg eg (shapeCast S131072x1 ct shapeCasts_S131072_S131072x1) (shapeCast S1x128 bf shapeCasts_S128_S1x128)
        (shapeCast S1x128 ph shapeCasts_S128_S1x128)
        (truncf .bf16 (transpose S384x1536 [1, 0] w transposes_S1536x384_S384x1536_1_0 : FVec Ideal S384x1536 .f32) bitsLt_bf16_f32)
        (shapeCast S1x1536 (addf bi bh) shapeCasts_S1536_S1x1536) p q
      = gateAt sg tg eg ct bf ph w bi bh p q := by
  unfold sgate gateAt rowFeat
  simp only [column_at, shapeCast_a_1a_apply, truncf_apply, addf_apply]
  have hw : (fun k : Fin 384 => transpose S384x1536 [1, 0] w transposes_S1536x384_S384x1536_1_0 (ix2 k q)) = fun k => w (ix2 q k) :=
    funext fun k => transpose_ix2_apply w _ k q
  rw [hw]

/-- The cell-state array over the staged arrays is the specification's over the arguments. -/
theorem cellStaged_eq (c : Dev nD) : cellStaged m c
    = cellArr (Entry.nodeRows (m ((c : Thread nD τ).loc main_arg0)) (m ((c : Thread nD τ).loc main_arg4))) (Entry.nodeRows (m ((c : Thread nD τ).loc main_arg1)) (m ((c : Thread nD τ).loc main_arg4))) (Entry.edgeRows (m ((c : Thread nD τ).loc main_arg3)) (m ((c : Thread nD τ).loc main_arg5)))
      (m ((c : Thread nD τ).loc main_arg2)) (m ((c : Thread nD τ).loc main_arg6)) (m ((c : Thread nD τ).loc main_arg7)) (m ((c : Thread nD τ).loc main_arg8)) (m ((c : Thread nD τ).loc main_arg10)) (m ((c : Thread nD τ).loc main_arg11)) := by
  funext i
  unfold cellStaged cellArr cellAt scell
  rw [Entry.V_v6, Entry.V_v13, Entry.V_v20, Entry.V_v21, Entry.V_v22, Entry.V_v23, Entry.V_v25, Entry.V_v27,
    sgate_views, sgate_views]
  rfl

/-- The hidden-state array over the staged arrays is the specification's over the arguments. -/
theorem hiddenStaged_eq (c : Dev nD) : hiddenStaged m c
    = hiddenArr (Entry.nodeRows (m ((c : Thread nD τ).loc main_arg0)) (m ((c : Thread nD τ).loc main_arg4))) (Entry.nodeRows (m ((c : Thread nD τ).loc main_arg1)) (m ((c : Thread nD τ).loc main_arg4))) (Entry.edgeRows (m ((c : Thread nD τ).loc main_arg3)) (m ((c : Thread nD τ).loc main_arg5)))
      (m ((c : Thread nD τ).loc main_arg2)) (m ((c : Thread nD τ).loc main_arg6)) (m ((c : Thread nD τ).loc main_arg7)) (m ((c : Thread nD τ).loc main_arg8)) (m ((c : Thread nD τ).loc main_arg10)) (m ((c : Thread nD τ).loc main_arg11)) := by
  funext i
  unfold hiddenStaged hiddenArr hiddenAt shidden cellAt scell
  rw [Entry.V_v6, Entry.V_v13, Entry.V_v20, Entry.V_v21, Entry.V_v22, Entry.V_v23, Entry.V_v25, Entry.V_v27,
    sgate_views, sgate_views, sgate_views]
  rfl

/-! ## The run -/

/-- THE KERNEL'S RUN: it terminates with the first result the hidden-state array and the second the cell-state array of
    the specification over the argument arrays, the arguments unchanged. -/
theorem run : θ_run defs (onTc (τ := τ) (main (F := Ideal))) ⟨m, fun _ => 0, ρ⟩ fun r => ∀ c : Dev nD,
      r.2.mem ((c : Thread nD τ).loc main_v28_0) = hiddenArr (Entry.nodeRows (m ((c : Thread nD τ).loc main_arg0)) (m ((c : Thread nD τ).loc main_arg4))) (Entry.nodeRows (m ((c : Thread nD τ).loc main_arg1)) (m ((c : Thread nD τ).loc main_arg4))) (Entry.edgeRows (m ((c : Thread nD τ).loc main_arg3)) (m ((c : Thread nD τ).loc main_arg5)))
      (m ((c : Thread nD τ).loc main_arg2)) (m ((c : Thread nD τ).loc main_arg6)) (m ((c : Thread nD τ).loc main_arg7)) (m ((c : Thread nD τ).loc main_arg8)) (m ((c : Thread nD τ).loc main_arg10)) (m ((c : Thread nD τ).loc main_arg11))
      ∧ r.2.mem ((c : Thread nD τ).loc main_v28_1) = cellArr (Entry.nodeRows (m ((c : Thread nD τ).loc main_arg0)) (m ((c : Thread nD τ).loc main_arg4))) (Entry.nodeRows (m ((c : Thread nD τ).loc main_arg1)) (m ((c : Thread nD τ).loc main_arg4))) (Entry.edgeRows (m ((c : Thread nD τ).loc main_arg3)) (m ((c : Thread nD τ).loc main_arg5)))
      (m ((c : Thread nD τ).loc main_arg2)) (m ((c : Thread nD τ).loc main_arg6)) (m ((c : Thread nD τ).loc main_arg7)) (m ((c : Thread nD τ).loc main_arg8)) (m ((c : Thread nD τ).loc main_arg10)) (m ((c : Thread nD τ).loc main_arg11))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨((h c).1.trans (final8 m c)).trans (hiddenStaged_eq m c),
      ((h c).2.1.trans (final9 m c)).trans (cellStaged_eq m c), (h c).2.2⟩)
    (Value.run_blocks m ρ)

end Cert.KernelIdeal.KValue

end
-- ==== Proof.LibLogistic.lean ====
/-
  The logistic function spelt out in host operations, on the extended reals.

  On the host the logistic function of y is computed as one over (one plus the exponential of minus y): a negation, an
  exponential, an addition of the float one and a division into the float one. On the extended reals that expression IS
  the logistic function (0 at −∞, 1 at +∞, 1/(1+e^(−y)) at a real y), and the float word of one denotes the number one.
-/
import Idealize.ShloMosaic.PureOps.Ideal

noncomputable section

namespace Cert.LogisticSpelt

open Idealize.ShloMosaic

/-- The 32-bit float word of one denotes one. -/
theorem one_word : Ideal.ofBits .f32 0x3F800000#32 = 1 := by
  simp [Ideal.ofBits, Ideal.ieee, -EReal.coe_mul]; norm_num

/-- One over one plus the exponential of the negative, in the host's operations, is the logistic function. -/
theorem logistic_spelt (y : Ideal .f32) :
    FloatOps.hostDivf (1 : Ideal .f32) (FloatOps.addf 1 (FloatOps.hostUnary .exp (FloatOps.hostNegf y))) = Ideal.logistic y := rfl

/-- The same in a kernel's operations. -/
theorem logistic_spelt_kernel (y : Ideal .f32) :
    FloatOps.divf (1 : Ideal .f32) (FloatOps.addf 1 (FloatOps.exp (FloatOps.negf y))) = Ideal.logistic y := rfl

end Cert.LogisticSpelt

end
-- ==== Proof.RefGate.lean ====
/-
  The reference's gate matrix, and its two results, entry by entry.

  The reference computes the time encoding over the whole [131072, 128] array, gathers the node and edge rows, lays
  the three arrays side by side, takes one [131072, 384] by [384, 1536] product against the transposed weights and
  adds the two biases one after the other. Read at (p, q) this is the specification's gate at row p and column q
  (the two bias additions regrouped: addition of extended reals is associative). Its sigmoid is spelt
  1 / (1 + exp(-x)), which is the logistic function on the extended reals.
-/
import proofs.«167224_j36593121362101_1_alg».proof.Proof.Gen.ReferenceIdeal.Read
import proofs.«167224_j36593121362101_1_alg».proof.Proof.LstmSpec
import proofs.«167224_j36593121362101_1_alg».proof.Proof.LibLogistic
import Idealize.ShloMosaic.Lib.Pipeline.Value
import Idealize.ShloMosaic.Lib.ValueIdx
import Idealize.ShloMosaic.PureOps.Ideal.Laws

noncomputable section

open scoped BigOperators

namespace Cert.ReferenceIdeal.RefGate

open Cert.ReferenceIdeal Cert.ReferenceIdeal.Gen Cert.ReferenceIdeal.Read Idealize.ShloMosaic Idealize.ShloMosaic.ValueIdx
open Cert.LstmSpec

/-- Three [131072, 128] arrays joined along the columns, at (p, k): the array that column k falls in, at its own column. -/
theorem joined_at (A B C : FVec Ideal S131072x128 .f32) (p : Fin 131072) (k : Fin 384) :
    concatenate S131072x384 1 [⟨S131072x128, A⟩, ⟨S131072x128, B⟩, ⟨S131072x128, C⟩]
      concatenates_S131072x128_S131072x128_S131072x128_S131072x384_d1 (ix2 p k)
      = feat (fun k' => A (ix2 p k')) (fun k' => B (ix2 p k')) (fun k' => C (ix2 p k')) k := by
  have hk : k.val < 384 := k.isLt
  by_cases h1 : k.val < 128
  · rw [feat_lo _ _ _ k h1]
    refine concatenate_apply_piece (1 : Fin 2) [⟨S131072x128, A⟩, ⟨S131072x128, B⟩, ⟨S131072x128, C⟩] _ (ix2 p k) 0 (Nat.zero_lt_succ _) S131072x128 A rfl rfl 0 rfl
      (ix2 p ⟨k.val, h1⟩) (fun b hb => ?_) ?_
    · match b with
      | ⟨0, _⟩ => rfl
      | ⟨1, _⟩ => exact absurd rfl hb
    · show 0 + k.val = k.val; omega
  · by_cases h2 : k.val < 256
    · rw [feat_mid _ _ _ k h1 h2]
      refine concatenate_apply_piece (1 : Fin 2) [⟨S131072x128, A⟩, ⟨S131072x128, B⟩, ⟨S131072x128, C⟩] _ (ix2 p k) 1 (Nat.succ_lt_succ (Nat.zero_lt_succ _)) S131072x128 B rfl rfl 128 rfl
        (ix2 p ⟨k.val - 128, by omega⟩) (fun b hb => ?_) ?_
      · match b with
        | ⟨0, _⟩ => rfl
        | ⟨1, _⟩ => exact absurd rfl hb
      · show 128 + (k.val - 128) = k.val; omega
    · rw [feat_hi _ _ _ k h1 h2]
      refine concatenate_apply_piece (1 : Fin 2) [⟨S131072x128, A⟩, ⟨S131072x128, B⟩, ⟨S131072x128, C⟩] _ (ix2 p k) 2 (Nat.succ_lt_succ (Nat.succ_lt_succ (Nat.zero_lt_succ _))) S131072x128 C rfl rfl 256 rfl
        (ix2 p ⟨k.val - 256, by omega⟩) (fun b hb => ?_) ?_
      · match b with
        | ⟨0, _⟩ => rfl
        | ⟨1, _⟩ => exact absurd rfl hb
      · show 256 + (k.val - 256) = k.val; omega

section Ref

variable (x0 x1 : (⟨S131072, .i32⟩ : BufTy).Contents (Elt Ideal)) (x2 : (⟨S131072, .f32⟩ : BufTy).Contents (Elt Ideal))
  (x3 : (⟨S131072, .i32⟩ : BufTy).Contents (Elt Ideal)) (x4 : (⟨S100000x128, .f32⟩ : BufTy).Contents (Elt Ideal))
  (x5 : (⟨S500000x128, .f32⟩ : BufTy).Contents (Elt Ideal)) (x6 x7 : (⟨S128, .f32⟩ : BufTy).Contents (Elt Ideal))
  (x8 : (⟨S1536x384, .f32⟩ : BufTy).Contents (Elt Ideal)) (x10 x11 : (⟨S1536, .f32⟩ : BufTy).Contents (Elt Ideal))

/-- The time encoding at (p, k). -/
theorem time_at (p : Fin 131072) (k : Fin 128) :
    val_main_v8 (F := Ideal) x2 x6 x7 (ix2 p k) = Ideal.cos (x2 (ix1 p) * x6 (ix1 k) + x7 (ix1 k)) := by
  rw [val_main_v8_apply, val_main_v7_apply, val_main_v4_apply, val_main_v2_apply, val_main_v0_apply,
    val_main_v3_apply, val_main_v1_apply, val_main_v6_apply, val_main_v5_apply]
  have e0 : idx_main_v0 (idx_main_v2 (ix2 p k)) = ix1 p := funext fun a => Fin.ext (by match a with | ⟨0, _⟩ => rfl)
  have e1 : idx_main_v1 (idx_main_v3 (ix2 p k)) = ix1 k := funext fun a => Fin.ext (by match a with | ⟨0, _⟩ => rfl)
  have e2 : idx_main_v5 (idx_main_v6 (ix2 p k)) = ix1 k := funext fun a => Fin.ext (by match a with | ⟨0, _⟩ => rfl)
  rw [e0, e1, e2]
  rfl

/-- The reference's feature row p at column k. -/
theorem feat_at (p : Fin 131072) (k : Fin 384) :
    val_main_v31 (F := Ideal) x0 x1 x2 x3 x4 x5 x6 x7 (ix2 p k)
      = rowFeat (val_main_v15 (F := Ideal) x0 x4) (val_main_v22 (F := Ideal) x1 x4) (val_main_v30 (F := Ideal) x3 x5) x2 x6 x7 p k := by
  unfold val_main_v31 rowFeat
  rw [joined_at]
  refine congrArg (fun f => feat _ f _ k) (funext fun k' => ?_)
  exact time_at x2 x6 x7 p k'

/-- THE REFERENCE'S GATE MATRIX AT (p, q) is the specification's gate. -/
theorem gate_at (p : Fin 131072) (q : Fin 1536) :
    val_main_v39 (F := Ideal) x0 x1 x2 x3 x4 x5 x6 x7 x8 x10 x11 (ix2 p q)
      = gateAt (val_main_v15 (F := Ideal) x0 x4) (val_main_v22 (F := Ideal) x1 x4) (val_main_v30 (F := Ideal) x3 x5) x2 x6 x7 x8 x10 x11 p q := by
  rw [val_main_v39_apply, val_main_v36_apply, val_main_v33_apply, val_main_v35_apply, val_main_v34_apply,
    val_main_v38_apply, val_main_v37_apply]
  have e0 : idx_main_v34 (idx_main_v35 (ix2 p q)) = ix1 q := funext fun a => Fin.ext (by match a with | ⟨0, _⟩ => rfl)
  have e1 : idx_main_v37 (idx_main_v38 (ix2 p q)) = ix1 q := funext fun a => Fin.ext (by match a with | ⟨0, _⟩ => rfl)
  rw [e0, e1]
  show ((∑ k : Fin 384, val_main_v31 (F := Ideal) x0 x1 x2 x3 x4 x5 x6 x7 (lidx_main_v33 (ix2 p q) k)
      * val_main_v32 (F := Ideal) x8 (ridx_main_v33 (ix2 p q) k)) + x10 (ix1 q)) + x11 (ix1 q) = _
  rw [gate_two_biases]
  unfold gateAt gate
  refine congrArg (· + (x10 (ix1 q) + x11 (ix1 q))) (Finset.sum_congr rfl fun k _ => ?_)
  beta_reduce
  have el : lidx_main_v33 (ix2 p q) k = ix2 p k := funext fun a => Fin.ext (by match a with | ⟨0, _⟩ => rfl | ⟨1, _⟩ => rfl)
  have er : idx_main_v32 (ridx_main_v33 (ix2 p q) k) = ix2 q k := funext fun a => Fin.ext (by match a with | ⟨0, _⟩ => rfl | ⟨1, _⟩ => rfl)
  rw [el, val_main_v32_apply, er, feat_at]

/-- The float word of one, read at the ideal instance, is the number one. -/
theorem one_eq : FloatOps.ofBits (F := Ideal) .f32 0x3F800000#32 = (1 : Ideal .f32) := Cert.LogisticSpelt.one_word

/-- THE REFERENCE'S CELL STATE is the specification's cell-state array: the sigmoid spelt 1 / (1 + exp(-x)) is the
    logistic function, and the slices pick gate columns j and 768 + j. -/
theorem cell_eq : val_main_v51 (F := Ideal) x0 x1 x2 x3 x4 x5 x6 x7 x8 x10 x11
    = cellArr (val_main_v15 (F := Ideal) x0 x4) (val_main_v22 (F := Ideal) x1 x4) (val_main_v30 (F := Ideal) x3 x5) x2 x6 x7 x8 x10 x11 := by
  funext i
  obtain ⟨p, j, rfl⟩ : ∃ (p : Fin 131072) (j : Fin 384), i = ix2 p j := ⟨i 0, i 1, eq_ix2 i⟩
  have hj : j.val < 384 := j.isLt
  rw [val_main_v51_apply, val_main_v49_apply, val_main_v48_apply, val_main_cst_5_apply, val_main_v47_apply,
    val_main_v46_apply, val_main_cst_apply, val_main_v45_apply, val_main_v44_apply, val_main_v40_apply,
    val_main_v50_apply, val_main_v42_apply]
  have e0 : idx_main_v40 (ix2 p j) = ix2 p ⟨j.val, by omega⟩ :=
    funext fun a => Fin.ext (by match a with | ⟨0, _⟩ => rfl | ⟨1, _⟩ => rfl)
  have e2 : idx_main_v42 (ix2 p j) = ix2 p ⟨j.val + 768, by omega⟩ :=
    funext fun a => Fin.ext (by match a with | ⟨0, _⟩ => rfl | ⟨1, _⟩ => show 768 + j.val = j.val + 768; omega)
  rw [e0, e2, gate_at, gate_at, one_eq]
  rfl

/-- THE REFERENCE'S HIDDEN STATE is the specification's hidden-state array (output gate at column 1152 + j). -/
theorem hidden_eq : val_main_v59 (F := Ideal) x0 x1 x2 x3 x4 x5 x6 x7 x8 x10 x11
    = hiddenArr (val_main_v15 (F := Ideal) x0 x4) (val_main_v22 (F := Ideal) x1 x4) (val_main_v30 (F := Ideal) x3 x5) x2 x6 x7 x8 x10 x11 := by
  funext i
  obtain ⟨p, j, rfl⟩ : ∃ (p : Fin 131072) (j : Fin 384), i = ix2 p j := ⟨i 0, i 1, eq_ix2 i⟩
  have hj : j.val < 384 := j.isLt
  rw [val_main_v59_apply, val_main_v57_apply, val_main_v56_apply, val_main_cst_7_apply, val_main_v55_apply,
    val_main_v54_apply, val_main_cst_6_apply, val_main_v53_apply, val_main_v52_apply, val_main_v43_apply,
    val_main_v58_apply, cell_eq]
  have e3 : idx_main_v43 (ix2 p j) = ix2 p ⟨j.val + 1152, by omega⟩ :=
    funext fun a => Fin.ext (by match a with | ⟨0, _⟩ => rfl | ⟨1, _⟩ => show 1152 + j.val = j.val + 1152; omega)
  rw [e3, gate_at, one_eq]
  rfl

end Ref

end Cert.ReferenceIdeal.RefGate

end
-- ==== Proof.lean ====
/-
  An LSTM cell with zero initial state over gathered graph features: the kernel and its reference compute the same
  hidden and cell states on the extended reals.

  For each of 131072 rows p the 384 input features are the sum of two rows of a node table (at a source and a target
  index), the time encoding cos(t_p * f_k + phi_k), and a row of an edge table. The gates are
  g(p, q) = sum_k feat(p, k) * W(q, k) + b_ih(q) + b_hh(q); the results are c = logistic(g_i) * tanh(g_g) and
  h = logistic(g_o) * tanh(c), the forget gate meeting only the zero initial cell.

  The kernel gathers the rows on the host, adds the two biases first, and runs one fused body per block of 1024 rows:
  features side by side, one matrix product against the transposed weights (narrowed to bf16, the identity on extended
  reals), the bias row, the three gate slices, the two activations. The reference does the same over whole arrays, adds
  the biases one after the other and spells the sigmoid 1 / (1 + exp(-x)). Both results are therefore the
  specification's arrays (Proof/LstmSpec.lean) of the same gathered rows and the same arguments: the kernel's by its
  body's gate matrix read at an entry (Proof/GatePayload.lean), the arrays the region stages (Proof/KernelEntry.lean)
  and the 128 blocks tiling the rows (Proof/KernelValue.lean); the reference's by its operations read one at a time
  (Proof/RefGate.lean). The laws used hold at every extended real (associativity of addition; the logistic function is
  that quotient by definition), so the finiteness of the inputs is never opened. The conjunct relating the word-level kernel to its reading on the
  extended reals lists no rewritten operation: it is the proposition True.
-/
import proofs.«167224_j36593121362101_1_alg».proof.Defs
import proofs.«167224_j36593121362101_1_alg».proof.Proof.Gen.Kernel
import proofs.«167224_j36593121362101_1_alg».proof.Proof.Gen.Kernel.Skeleton
import proofs.«167224_j36593121362101_1_alg».proof.Proof.Gen.Kernel.Launch
import proofs.«167224_j36593121362101_1_alg».proof.Proof.Gen.Kernel.Points
import proofs.«167224_j36593121362101_1_alg».proof.Proof.Gen.Kernel.Frame
import proofs.«167224_j36593121362101_1_alg».proof.Proof.Gen.KernelIdeal
import proofs.«167224_j36593121362101_1_alg».proof.Proof.Gen.KernelIdeal.Skeleton
import proofs.«167224_j36593121362101_1_alg».proof.Proof.Gen.KernelIdeal.Launch
import proofs.«167224_j36593121362101_1_alg».proof.Proof.Gen.KernelIdeal.Points
import proofs.«167224_j36593121362101_1_alg».proof.Proof.Gen.KernelIdeal.Frame
import proofs.«167224_j36593121362101_1_alg».proof.Proof.Gen.ReferenceIdeal
import proofs.«167224_j36593121362101_1_alg».proof.Proof.Gen.Pre_finite_inputs
import proofs.«167224_j36593121362101_1_alg».proof.Proof.Gen.KernelIdeal.Value
import proofs.«167224_j36593121362101_1_alg».proof.Proof.Gen.ReferenceIdeal.Run
import proofs.«167224_j36593121362101_1_alg».proof.Proof.Gen.ReferenceIdeal.Read
import proofs.«167224_j36593121362101_1_alg».proof.Proof.KernelValue
import proofs.«167224_j36593121362101_1_alg».proof.Proof.RefGate
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel (hKernel := Cert.Kernel.Gen.facts) (hPre_finite_inputs := Cert.Pre_finite_inputs.Gen.facts) :=
  fun m ρ _ => Cert.Kernel.Gen.frame m ρ

/-- So does the kernel read on the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference is a line of host operations: it runs, and no operation writes an argument. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2)
    (Cert.ReferenceIdeal.Value.run (F := Ideal) m ρ)

/-- From memories that agree on the arguments both programs end with the specification's hidden-state and cell-state
    arrays of the same gathered rows: the reference's normalised indices and gathers are the kernel's, operation for
    operation. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, _, Cert.KernelIdeal.KValue.run m ρ, ?_⟩
  refine (θ_run Cert.ReferenceIdeal.defs _ _).mono
    (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10, a11⟩ := hagree c
    rw [Cert.ReferenceIdeal.Read.val_main_v59_eq, Cert.ReferenceIdeal.RefGate.hidden_eq, a0, a1, a2, a3, a4, a5, a6, a7, a8, a10, a11]
    rfl
  · obtain ⟨a0, a1, a2, a3, a4, a5, a6, a7, a8, a9, a10, a11⟩ := hagree c
    rw [Cert.ReferenceIdeal.Read.val_main_v51_eq, Cert.ReferenceIdeal.RefGate.cell_eq, a0, a1, a2, a3, a4, a5, a6, a7, a8, a10, a11]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
